-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x6400000 : Shape := ⟨2, ![2, 6400000]⟩
abbrev S6400000x1 : Shape := ⟨2, ![6400000, 1]⟩
abbrev S13x10 : Shape := ⟨2, ![13, 10]⟩
abbrev S10 : Shape := ⟨1, ![10]⟩
abbrev S10x2 : Shape := ⟨2, ![10, 2]⟩
abbrev S2 : Shape := ⟨1, ![2]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6400000x1 : S_.BroadcastsInDim S6400000x1 (![] : Fin 0 → Fin S6400000x1.rank)
  reducesTo_S6400000x1_S_d0_1 : S6400000x1.ReducesTo [0, 1] S_
  bcast_S_S13x10 : S_.BroadcastsInDim S13x10 (![] : Fin 0 → Fin S13x10.rank)
  reducesTo_S13x10_S_d0_1 : S13x10.ReducesTo [0, 1] S_
  bcast_S_S10 : S_.BroadcastsInDim S10 (![] : Fin 0 → Fin S10.rank)
  reducesTo_S10_S_d0 : S10.ReducesTo [0] S_
  bcast_S_S10x2 : S_.BroadcastsInDim S10x2 (![] : Fin 0 → Fin S10x2.rank)
  reducesTo_S10x2_S_d0_1 : S10x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S10 .f32) (main_arg6 : FVec F S10x2 .f32) (main_arg7 : FVec F S2 .f32) (main_v13 : IVec S_ 1) (main_v16 : IVec S13x10 1) : IVec S_ 1 :=
  let main_c_5 : IVec S_ 1 := constantI S_ 1 1#1
  let main_v17 : IVec S_ 1 := (fun x v => Host.reduce IntOp.andi x v reducesTo_S13x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S10x2 .f32 := Host.absf main_arg6
  let main_cst_8 : FVec F S_ .f32 := constant S_ .f32 0x7F800000#32
  let main_v25 : FVec F S10x2 .f32 := broadcastInDim S10x2 ![] bcast_S_S10x2 main_cst_8
  let main_v26 : IVec S10x2 1 := cmpf .olt main_v24 main_v25
  let main_c_9 : IVec S_ 1 := constantI S_ 1 1#1
  let main_v27 : IVec S_ 1 := (fun x v => Host.reduce IntOp.andi x v reducesTo_S10x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x6 .f32) (main_arg1 : IVec S2x6400000 32) (main_arg2 : FVec F S6400000x1 .f32) (main_arg3 : FVec F S6400000x1 .f32) (main_arg4 : FVec F S13x10 .f32) (main_arg5 : FVec F S10 .f32) (main_arg6 : FVec F S10x2 .f32) (main_arg7 : FVec F S2 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6400000x1 .f32 := Host.absf main_arg2
  let main_cst_0 : FVec F S_ .f32 := constant S_ .f32 0x7F800000#32
  let main_v5 : FVec F S6400000x1 .f32 := broadcastInDim S6400000x1 ![] bcast_S_S6400000x1 main_cst_0
  let main_v6 : IVec S6400000x1 1 := cmpf .olt main_v4 main_v5
  let main_c_1 : IVec S_ 1 := constantI S_ 1 1#1
  let main_v7 : IVec S_ 1 := (fun x v => Host.reduce IntOp.andi x v reducesTo_S6400000x1_S_d0_1 h_S_) main_v6 main_c_1
  let main_v8 : IVec S_ 1 := andi main_v3 main_v7
  let main_v9 : FVec F S6400000x1 .f32 := Host.absf main_arg3
  let main_cst_2 : FVec F S_ .f32 := constant S_ .f32 0x7F800000#32
  let main_v10 : FVec F S6400000x1 .f32 := broadcastInDim S6400000x1 ![] bcast_S_S6400000x1 main_cst_2
  let main_v11 : IVec S6400000x1 1 := cmpf .olt main_v9 main_v10
  let main_c_3 : IVec S_ 1 := constantI S_ 1 1#1
  let main_v12 : IVec S_ 1 := (fun x v => Host.reduce IntOp.andi x v reducesTo_S6400000x1_S_d0_1 h_S_) main_v11 main_c_3
  let main_v13 : IVec S_ 1 := andi main_v8 main_v12
  let main_v14 : FVec F S13x10 .f32 := Host.absf main_arg4
  let main_cst_4 : FVec F S_ .f32 := constant S_ .f32 0x7F800000#32
  let main_v15 : FVec F S13x10 .f32 := broadcastInDim S13x10 ![] bcast_S_S13x10 main_cst_4
  let main_v16 : IVec S13x10 1 := cmpf .olt main_v14 main_v15
  fn_part1 (F := F) main_arg5 main_arg6 main_arg7 main_v13 main_v16
-- ==== Kernel.lean ====
abbrev S100000x6 : Shape := ⟨2, ![100000, 6]⟩
abbrev S2x6400000 : Shape := ⟨2, ![2, 6400000]⟩
abbrev S6400000x1 : Shape := ⟨2, ![6400000, 1]⟩
abbrev S13x10 : Shape := ⟨2, ![13, 10]⟩
abbrev S10 : Shape := ⟨1, ![10]⟩
abbrev S10x2 : Shape := ⟨2, ![10, 2]⟩
abbrev S2 : Shape := ⟨1, ![2]⟩
abbrev S1x6400000 : Shape := ⟨2, ![1, 6400000]⟩
abbrev S6400000 : Shape := ⟨1, ![6400000]⟩
abbrev S_ : Shape := ⟨0, ![]⟩
abbrev S6400000x6 : Shape := ⟨2, ![6400000, 6]⟩
abbrev S6x6400000 : Shape := ⟨2, ![6, 6400000]⟩
abbrev S6x6422528 : Shape := ⟨2, ![6, 6422528]⟩
abbrev S1x6422528 : Shape := ⟨2, ![1, 6422528]⟩
abbrev S6422528 : Shape := ⟨1, ![6422528]⟩
abbrev S6x32768 : Shape := ⟨2, ![6, 32768]⟩
abbrev S1x32768 : Shape := ⟨2, ![1, 32768]⟩
abbrev S32768 : Shape := ⟨1, ![32768]⟩
abbrev S13x32768 : Shape := ⟨2, ![13, 32768]⟩
abbrev S10x13 : Shape := ⟨2, ![10, 13]⟩
abbrev S2x10 : Shape := ⟨2, ![2, 10]⟩
abbrev S10x32768 : Shape := ⟨2, ![10, 32768]⟩
abbrev S10x1 : Shape := ⟨2, ![10, 1]⟩
abbrev S2x32768 : Shape := ⟨2, ![2, 32768]⟩
abbrev S2x1 : Shape := ⟨2, ![2, 1]⟩

abbrev nBuf : Space → Nat
  | .hbm => 49
  | .vmem => 14
  | .smem => 0
  | _ => 0

abbrev bufTy : (tb : Table) → Fin (tcTables nBuf tb) → BufTy
  | .hbm, ⟨0, _⟩ => ⟨S100000x6, .f32⟩
  | .hbm, ⟨1, _⟩ => ⟨S2x6400000, .i32⟩
  | .hbm, ⟨2, _⟩ => ⟨S6400000x1, .f32⟩
  | .hbm, ⟨3, _⟩ => ⟨S6400000x1, .f32⟩
  | .hbm, ⟨4, _⟩ => ⟨S13x10, .f32⟩
  | .hbm, ⟨5, _⟩ => ⟨S10, .f32⟩
  | .hbm, ⟨6, _⟩ => ⟨S10x2, .f32⟩
  | .hbm, ⟨7, _⟩ => ⟨S2, .f32⟩
  | .hbm, ⟨8, _⟩ => ⟨S1x6400000, .i32⟩
  | .hbm, ⟨9, _⟩ => ⟨S6400000, .i32⟩
  | .hbm, ⟨10, _⟩ => ⟨S1x6400000, .i32⟩
  | .hbm, ⟨11, _⟩ => ⟨S6400000, .i32⟩
  | .hbm, ⟨12, _⟩ => ⟨S_, .i32⟩
  | .hbm, ⟨13, _⟩ => ⟨S6400000, .i32⟩
  | .hbm, ⟨14, _⟩ => ⟨S6400000, .i1⟩
  | .hbm, ⟨15, _⟩ => ⟨S_, .i32⟩
  | .hbm, ⟨16, _⟩ => ⟨S6400000, .i32⟩
  | .hbm, ⟨17, _⟩ => ⟨S6400000, .i32⟩
  | .hbm, ⟨18, _⟩ => ⟨S6400000, .i32⟩
  | .hbm, ⟨19, _⟩ => ⟨S6400000x1, .i32⟩
  | .hbm, ⟨20, _⟩ => ⟨S6400000x6, .f32⟩
  | .hbm, ⟨21, _⟩ => ⟨S6x6400000, .f32⟩
  | .hbm, ⟨22, _⟩ => ⟨S_, .i32⟩
  | .hbm, ⟨23, _⟩ => ⟨S6400000, .i32⟩
  | .hbm, ⟨24, _⟩ => ⟨S6400000, .i1⟩
  | .hbm, ⟨25, _⟩ => ⟨S_, .i32⟩
  | .hbm, ⟨26, _⟩ => ⟨S6400000, .i32⟩
  | .hbm, ⟨27, _⟩ => ⟨S6400000, .i32⟩
  | .hbm, ⟨28, _⟩ => ⟨S6400000, .i32⟩
  | .hbm, ⟨29, _⟩ => ⟨S6400000x1, .i32⟩
  | .hbm, ⟨30, _⟩ => ⟨S6400000x6, .f32⟩
  | .hbm, ⟨31, _⟩ => ⟨S6x6400000, .f32⟩
  | .hbm, ⟨32, _⟩ => ⟨S1x6400000, .f32⟩
  | .hbm, ⟨33, _⟩ => ⟨S1x6400000, .f32⟩
  | .hbm, ⟨34, _⟩ => ⟨S_, .i32⟩
  | .hbm, ⟨35, _⟩ => ⟨S_, .f32⟩
  | .hbm, ⟨36, _⟩ => ⟨S6x6422528, .f32⟩
  | .hbm, ⟨37, _⟩ => ⟨S_, .i32⟩
  | .hbm, ⟨38, _⟩ => ⟨S_, .f32⟩
  | .hbm, ⟨39, _⟩ => ⟨S6x6422528, .f32⟩
  | .hbm, ⟨40, _⟩ => ⟨S_, .i32⟩
  | .hbm, ⟨41, _⟩ => ⟨S_, .f32⟩
  | .hbm, ⟨42, _⟩ => ⟨S1x6422528, .f32⟩
  | .hbm, ⟨43, _⟩ => ⟨S_, .i32⟩
  | .hbm, ⟨44, _⟩ => ⟨S_, .f32⟩
  | .hbm, ⟨45, _⟩ => ⟨S1x6422528, .f32⟩
  | .hbm, ⟨46, _⟩ => ⟨S6422528, .f32⟩
  | .hbm, ⟨47, _⟩ => ⟨S6400000, .f32⟩
  | .hbm, ⟨48, _⟩ => ⟨S6400000x1, .f32⟩
  | .local _ .vmem, ⟨0, _⟩ => ⟨S6x32768, .f32⟩
  | .local _ .vmem, ⟨1, _⟩ => ⟨S6x32768, .f32⟩
  | .local _ .vmem, ⟨2, _⟩ => ⟨S6x32768, .f32⟩
  | .local _ .vmem, ⟨3, _⟩ => ⟨S6x32768, .f32⟩
  | .local _ .vmem, ⟨4, _⟩ => ⟨S1x32768, .f32⟩
  | .local _ .vmem, ⟨5, _⟩ => ⟨S1x32768, .f32⟩
  | .local _ .vmem, ⟨6, _⟩ => ⟨S1x32768, .f32⟩
  | .local _ .vmem, ⟨7, _⟩ => ⟨S1x32768, .f32⟩
  | .local _ .vmem, ⟨8, _⟩ => ⟨S13x10, .f32⟩
  | .local _ .vmem, ⟨9, _⟩ => ⟨S10, .f32⟩
  | .local _ .vmem, ⟨10, _⟩ => ⟨S10x2, .f32⟩
  | .local _ .vmem, ⟨11, _⟩ => ⟨S2, .f32⟩
  | .local _ .vmem, ⟨12, _⟩ => ⟨S32768, .f32⟩
  | .local _ .vmem, ⟨13, _⟩ => ⟨S32768, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_call0_v0 : Ref sig .tc := ⟨.hbm, 35, rfl⟩
abbrev main_v22 : Ref sig .tc := ⟨.hbm, 36, rfl⟩
abbrev main_c_4 : Ref sig .tc := ⟨.hbm, 37, rfl⟩
abbrev main_call1_v0 : Ref sig .tc := ⟨.hbm, 38, rfl⟩
abbrev main_v23 : Ref sig .tc := ⟨.hbm, 39, rfl⟩
abbrev main_c_5 : Ref sig .tc := ⟨.hbm, 40, rfl⟩
abbrev main_call2_v0 : Ref sig .tc := ⟨.hbm, 41, rfl⟩
abbrev main_v24 : Ref sig .tc := ⟨.hbm, 42, rfl⟩
abbrev main_c_6 : Ref sig .tc := ⟨.hbm, 43, rfl⟩
abbrev main_call3_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S6x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S13x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  transposes_S6400000x6_S6x6400000_1_0 : S6400000x6.Transposes [1, 0] S6x6400000
  transposes_S6400000x1_S1x6400000_1_0 : S6400000x1.Transposes [1, 0] S1x6400000
  pads_S6x6400000_S6x6422528_000_0225280 : S6x6400000.Pads (![0, 0] : Fin 2 → Nat) ![0, 22528] ![0, 0] S6x6422528
  h_S_ : 0 < S_.numel
  pads_S1x6400000_S1x6422528_000_0225280 : S1x6400000.Pads (![0, 0] : Fin 2 → Nat) ![0, 22528] ![0, 0] S1x6422528
  inb_S6x32768_S6x32768_0_0 : ∀ a, (![0, 0] : Fin 2 → Nat) a + S6x32768.size a ≤ S6x32768.size a
  h_S6x32768 : 0 < S6x32768.numel
  shapeCasts_S6x32768_S6x32768 : S6x32768.ShapeCasts S6x32768
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  concatenates_S6x32768_S6x32768_S1x32768_S13x32768_d0 : Shape.Concatenates [S6x32768, S6x32768, S1x32768] S13x32768 0
  inb_S13x10_S13x10_0_0 : ∀ a, (![0, 0] : Fin 2 → Nat) a + S13x10.size a ≤ S13x10.size a
  h_S13x10 : 0 < S13x10.numel
  transposes_S13x10_p1_0_S10x13 : S13x10.Transposes [1, 0] S10x13
  bitsLt_bf16_f32 : FTy.bits .bf16 < FTy.bits .f32
  inb_S10_S10_0 : ∀ a, (![0] : Fin 1 → Nat) a + S10.size a ≤ S10.size a
  h_S10 : 0 < S10.numel
  inb_S10x2_S10x2_0_0 : ∀ a, (![0, 0] : Fin 2 → Nat) a + S10x2.size a ≤ S10x2.size a
  h_S10x2 : 0 < S10x2.numel
  transposes_S10x2_p1_0_S2x10 : S10x2.Transposes [1, 0] S2x10
  inb_S2_S2_0 : ∀ a, (![0] : Fin 1 → Nat) a + S2.size a ≤ S2.size a
  h_S2 : 0 < S2.numel
  shapeCasts_S10_S10x1 : S10.ShapeCasts S10x1
  broadcasts_S10x1_S10x32768 : S10x1.Broadcasts S10x32768
  shapeCasts_S2_S2x1 : S2.ShapeCasts S2x1
  broadcasts_S2x1_S2x32768 : S2x1.Broadcasts S2x32768
  slices_S2x32768_o1_0_S1x32768 : S2x32768.Slices ![1, 0] S1x32768
  shapeCasts_S1x32768_S32768 : S1x32768.ShapeCasts S32768
  slices_S2x32768_o0_0_S1x32768 : S2x32768.Slices ![0, 0] S1x32768
  inb_S32768_S32768_0 : ∀ a, (![0] : Fin 1 → Nat) a + S32768.size a ≤ S32768.size a
  h_S32768 : 0 < S32768.numel
  slices_S6422528_S6400000_0 : S6422528.Slices ![0] S6400000
  shapeCasts_S6400000_S6400000x1 : S6400000.ShapeCasts S6400000x1
  gather_S100000x6_S6400000x1_S6400000x6_1_0_n_n_0_1_16_wf : GatherDims.WF S100000x6 S6400000x1 S6400000x6 [1] [0] [] [0] [] 1 ![1, 6]
  dot_S10x13_S13x32768_S10x32768_1_0_0_1_n_n_wf : DotDims.WF S10x13 S13x32768 S10x32768 [1] [0] [0] [1] [] []
  dot_S2x10_S10x32768_S2x32768_1_0_0_1_n_n_wf : DotDims.WF S2x10 S10x32768 S2x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x32768.size a ≤ S6x6422528.size a
  hwx0_0 : ∀ i : grid0.Coords, EltTy.bits .f32 = 32 ∨ (Rect.block (s := S6x6422528) S6x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x32768.size a ≤ S6x6422528.size a
  hwx0_1 : ∀ i : grid0.Coords, EltTy.bits .f32 = 32 ∨ (Rect.block (s := S6x6422528) S6x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32768.size a ≤ S1x6422528.size a
  hwx0_2 : ∀ i : grid0.Coords, EltTy.bits .f32 = 32 ∨ (Rect.block (s := S1x6422528) S1x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32768.size a ≤ S1x6422528.size a
  hwx0_3 : ∀ i : grid0.Coords, EltTy.bits .f32 = 32 ∨ (Rect.block (s := S1x6422528) S1x32768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S13x10.size a ≤ S13x10.size a
  hwx0_4 : ∀ i : grid0.Coords, EltTy.bits .f32 = 32 ∨ (Rect.block (s := S13x10) S13x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10.size a ≤ S10.size a
  hwx0_5 : ∀ i : grid0.Coords, EltTy.bits .f32 = 32 ∨ (Rect.block (s := S10) S10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10x2.size a ≤ S10x2.size a
  hwx0_6 : ∀ i : grid0.Coords, EltTy.bits .f32 = 32 ∨ (Rect.block (s := S10x2) S10x2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2.size a ≤ S2.size a
  hwx0_7 : ∀ i : grid0.Coords, EltTy.bits .f32 = 32 ∨ (Rect.block (s := S2) S2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32768.size a ≤ S6422528.size a
  hwx0_8 : ∀ i : grid0.Coords, EltTy.bits .f32 = 32 ∨ (Rect.block (s := S6422528) S32768.size (cc0_transform_8 i) (hinb0_8 i)).WholeWords (EltTy.packing .f32)

variable [Facts₀]

def gather_S100000x6_S6400000x1_S6400000x6_1_0_n_n_0_1_16 : GatherDims S100000x6 S6400000x1 S6400000x6 where
  offsetDims := [1]
  collapsedSliceDims := [0]
  operandBatchingDims := []
  startIndicesBatchingDims := []
  startIndexMap := [0]
  indexVectorDim := 1
  sliceSizes := ![1, 6]
  wf := gather_S100000x6_S6400000x1_S6400000x6_1_0_n_n_0_1_16_wf
def dot_S10x13_S13x32768_S10x32768_1_0_0_1_n_n : DotDims S10x13 S13x32768 S10x32768 where
  lhsContracting := [1]
  rhsContracting := [0]
  lhsNonContracting := [0]
  rhsNonContracting := [1]
  lhsBatch := []
  rhsBatch := []
  wf := dot_S10x13_S13x32768_S10x32768_1_0_0_1_n_n_wf
def dot_S2x10_S10x32768_S2x32768_1_0_0_1_n_n : DotDims S2x10 S10x32768 S2x32768 where
  lhsContracting := [1]
  rhsContracting := [0]
  lhsNonContracting := [0]
  rhsNonContracting := [1]
  lhsBatch := []
  rhsBatch := []
  wf := dot_S2x10_S10x32768_S2x32768_1_0_0_1_n_n_wf

abbrev win0_0 : Pipeline.Window sig grid0 :=
  Pipeline.Window.ofSpec (Memref.whole main_v22) S6x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S6x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x32768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S13x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S10x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S32768.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x6 : Shape := ⟨2, ![100000, 6]⟩
abbrev S2x6400000 : Shape := ⟨2, ![2, 6400000]⟩
abbrev S6400000x1 : Shape := ⟨2, ![6400000, 1]⟩
abbrev S13x10 : Shape := ⟨2, ![13, 10]⟩
abbrev S10 : Shape := ⟨1, ![10]⟩
abbrev S10x2 : Shape := ⟨2, ![10, 2]⟩
abbrev S2 : Shape := ⟨1, ![2]⟩
abbrev S1x6400000 : Shape := ⟨2, ![1, 6400000]⟩
abbrev S6400000 : Shape := ⟨1, ![6400000]⟩
abbrev S_ : Shape := ⟨0, ![]⟩
abbrev S6400000x6 : Shape := ⟨2, ![6400000, 6]⟩
abbrev S6400000x13 : Shape := ⟨2, ![6400000, 13]⟩
abbrev S6400000x10 : Shape := ⟨2, ![6400000, 10]⟩
abbrev S1x10 : Shape := ⟨2, ![1, 10]⟩
abbrev S6400000x2 : Shape := ⟨2, ![6400000, 2]⟩
abbrev S1x2 : Shape := ⟨2, ![1, 2]⟩

abbrev nBuf : Space → Nat
  | .hbm => 73
  | .vmem => 0
  | .smem => 0
  | _ => 0

abbrev bufTy : (tb : Table) → Fin (tcTables nBuf tb) → BufTy
  | .hbm, ⟨0, _⟩ => ⟨S100000x6, .f32⟩
  | .hbm, ⟨1, _⟩ => ⟨S2x6400000, .i32⟩
  | .hbm, ⟨2, _⟩ => ⟨S6400000x1, .f32⟩
  | .hbm, ⟨3, _⟩ => ⟨S6400000x1, .f32⟩
  | .hbm, ⟨4, _⟩ => ⟨S13x10, .f32⟩
  | .hbm, ⟨5, _⟩ => ⟨S10, .f32⟩
  | .hbm, ⟨6, _⟩ => ⟨S10x2, .f32⟩
  | .hbm, ⟨7, _⟩ => ⟨S2, .f32⟩
  | .hbm, ⟨8, _⟩ => ⟨S1x6400000, .i32⟩
  | .hbm, ⟨9, _⟩ => ⟨S6400000, .i32⟩
  | .hbm, ⟨10, _⟩ => ⟨S1x6400000, .i32⟩
  | .hbm, ⟨11, _⟩ => ⟨S6400000, .i32⟩
  | .hbm, ⟨12, _⟩ => ⟨S_, .i32⟩
  | .hbm, ⟨13, _⟩ => ⟨S6400000, .i32⟩
  | .hbm, ⟨14, _⟩ => ⟨S6400000, .i1⟩
  | .hbm, ⟨15, _⟩ => ⟨S_, .i32⟩
  | .hbm, ⟨16, _⟩ => ⟨S6400000, .i32⟩
  | .hbm, ⟨17, _⟩ => ⟨S6400000, .i32⟩
  | .hbm, ⟨18, _⟩ => ⟨S6400000, .i32⟩
  | .hbm, ⟨19, _⟩ => ⟨S6400000x1, .i32⟩
  | .hbm, ⟨20, _⟩ => ⟨S6400000x6, .f32⟩
  | .hbm, ⟨21, _⟩ => ⟨S_, .i32⟩
  | .hbm, ⟨22, _⟩ => ⟨S6400000, .i32⟩
  | .hbm, ⟨23, _⟩ => ⟨S6400000, .i1⟩
  | .hbm, ⟨24, _⟩ => ⟨S_, .i32⟩
  | .hbm, ⟨25, _⟩ => ⟨S6400000, .i32⟩
  | .hbm, ⟨26, _⟩ => ⟨S6400000, .i32⟩
  | .hbm, ⟨27, _⟩ => ⟨S6400000, .i32⟩
  | .hbm, ⟨28, _⟩ => ⟨S6400000x1, .i32⟩
  | .hbm, ⟨29, _⟩ => ⟨S6400000x6, .f32⟩
  | .hbm, ⟨30, _⟩ => ⟨S6400000x13, .f32⟩
  | .hbm, ⟨31, _⟩ => ⟨S6400000x13, .f32⟩
  | .hbm, ⟨32, _⟩ => ⟨S6400000x10, .f32⟩
  | .hbm, ⟨33, _⟩ => ⟨S1x10, .f32⟩
  | .hbm, ⟨34, _⟩ => ⟨S6400000x10, .f32⟩
  | .hbm, ⟨35, _⟩ => ⟨S6400000x10, .f32⟩
  | .hbm, ⟨36, _⟩ => ⟨S_, .f32⟩
  | .hbm, ⟨37, _⟩ => ⟨S6400000x10, .f32⟩
  | .hbm, ⟨38, _⟩ => ⟨S6400000x10, .f32⟩
  | .hbm, ⟨39, _⟩ => ⟨S6400000x2, .f32⟩
  | .hbm, ⟨40, _⟩ => ⟨S1x2, .f32⟩
  | .hbm, ⟨41, _⟩ => ⟨S6400000x2, .f32⟩
  | .hbm, ⟨42, _⟩ => ⟨S6400000x2, .f32⟩
  | .hbm, ⟨43, _⟩ => ⟨S6400000x10, .f32⟩
  | .hbm, ⟨44, _⟩ => ⟨S1x10, .f32⟩
  | .hbm, ⟨45, _⟩ => ⟨S6400000x10, .f32⟩
  | .hbm, ⟨46, _⟩ => ⟨S6400000x10, .f32⟩
  | .hbm, ⟨47, _⟩ => ⟨S_, .f32⟩
  | .hbm, ⟨48, _⟩ => ⟨S6400000x10, .f32⟩
  | .hbm, ⟨49, _⟩ => ⟨S6400000x10, .f32⟩
  | .hbm, ⟨50, _⟩ => ⟨S6400000x2, .f32⟩
  | .hbm, ⟨51, _⟩ => ⟨S1x2, .f32⟩
  | .hbm, ⟨52, _⟩ => ⟨S6400000x2, .f32⟩
  | .hbm, ⟨53, _⟩ => ⟨S6400000x2, .f32⟩
  | .hbm, ⟨54, _⟩ => ⟨S6400000x2, .f32⟩
  | .hbm, ⟨55, _⟩ => ⟨S_, .f32⟩
  | .hbm, ⟨56, _⟩ => ⟨S6400000x2, .f32⟩
  | .hbm, ⟨57, _⟩ => ⟨S6400000x2, .f32⟩
  | .hbm, ⟨58, _⟩ => ⟨S_, .f32⟩
  | .hbm, ⟨59, _⟩ => ⟨S6400000, .f32⟩
  | .hbm, ⟨60, _⟩ => ⟨S_, .f32⟩
  | .hbm, ⟨61, _⟩ => ⟨S6400000, .f32⟩
  | .hbm, ⟨62, _⟩ => ⟨S6400000, .f32⟩
  | .hbm, ⟨63, _⟩ => ⟨S6400000x1, .f32⟩
  | .hbm, ⟨64, _⟩ => ⟨S6400000x2, .f32⟩
  | .hbm, ⟨65, _⟩ => ⟨S6400000x2, .f32⟩
  | .hbm, ⟨66, _⟩ => ⟨S6400000x2, .f32⟩
  | .hbm, ⟨67, _⟩ => ⟨S_, .f32⟩
  | .hbm, ⟨68, _⟩ => ⟨S6400000, .f32⟩
  | .hbm, ⟨69, _⟩ => ⟨S6400000x1, .f32⟩
  | .hbm, ⟨70, _⟩ => ⟨S6400000x2, .f32⟩
  | .hbm, ⟨71, _⟩ => ⟨S6400000x2, .f32⟩
  | .hbm, ⟨72, _⟩ => ⟨S6400000x1, .f32⟩
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call1_cst : Ref sig .tc := ⟨.hbm, 47, rfl⟩
abbrev main_call1_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_cst_4 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  concatenates_S6400000x6_S6400000x6_S6400000x1_S6400000x13_d1 : Shape.Concatenates [S6400000x6, S6400000x6, S6400000x1] S6400000x13 1
  bcast_S10_S1x10_1 : S10.BroadcastsInDim S1x10 (![1] : Fin 1 → Fin S1x10.rank)
  bcast_S1x10_S6400000x10_0_1 : S1x10.BroadcastsInDim S6400000x10 (![0, 1] : Fin 2 → Fin S6400000x10.rank)
  bcast_S_S6400000x10 : S_.BroadcastsInDim S6400000x10 (![] : Fin 0 → Fin S6400000x10.rank)
  bcast_S2_S1x2_1 : S2.BroadcastsInDim S1x2 (![1] : Fin 1 → Fin S1x2.rank)
  bcast_S1x2_S6400000x2_0_1 : S1x2.BroadcastsInDim S6400000x2 (![0, 1] : Fin 2 → Fin S6400000x2.rank)
  bcast_S_S6400000x2 : S_.BroadcastsInDim S6400000x2 (![] : Fin 0 → Fin S6400000x2.rank)
  reducesTo_S6400000x2_S6400000_d1 : S6400000x2.ReducesTo [1] S6400000
  h_S_ : 0 < S_.numel
  bcast_S6400000x1_S6400000x2_0_1 : S6400000x1.BroadcastsInDim S6400000x2 (![0, 1] : Fin 2 → Fin S6400000x2.rank)
  slices_S6400000x2_S6400000x1_0_1 : S6400000x2.Slices ![0, 1] S6400000x1
  gather_S100000x6_S6400000x1_S6400000x6_1_0_n_n_0_1_16_wf : GatherDims.WF S100000x6 S6400000x1 S6400000x6 [1] [0] [] [0] [] 1 ![1, 6]
  dot_S6400000x13_S13x10_S6400000x10_1_0_0_1_n_n_wf : DotDims.WF S6400000x13 S13x10 S6400000x10 [1] [0] [0] [1] [] []
  dot_S6400000x10_S10x2_S6400000x2_1_0_0_1_n_n_wf : DotDims.WF S6400000x10 S10x2 S6400000x2 [1] [0] [0] [1] [] []

variable [Facts₀]

def gather_S100000x6_S6400000x1_S6400000x6_1_0_n_n_0_1_16 : GatherDims S100000x6 S6400000x1 S6400000x6 where
  offsetDims := [1]
  collapsedSliceDims := [0]
  operandBatchingDims := []
  startIndicesBatchingDims := []
  startIndexMap := [0]
  indexVectorDim := 1
  sliceSizes := ![1, 6]
  wf := gather_S100000x6_S6400000x1_S6400000x6_1_0_n_n_0_1_16_wf
def dot_S6400000x13_S13x10_S6400000x10_1_0_0_1_n_n : DotDims S6400000x13 S13x10 S6400000x10 where
  lhsContracting := [1]
  rhsContracting := [0]
  lhsNonContracting := [0]
  rhsNonContracting := [1]
  lhsBatch := []
  rhsBatch := []
  wf := dot_S6400000x13_S13x10_S6400000x10_1_0_0_1_n_n_wf
def dot_S6400000x10_S10x2_S6400000x2_1_0_0_1_n_n : DotDims S6400000x10 S10x2 S6400000x2 where
  lhsContracting := [1]
  rhsContracting := [0]
  lhsNonContracting := [0]
  rhsNonContracting := [1]
  lhsBatch := []
  rhsBatch := []
  wf := dot_S6400000x10_S10x2_S6400000x2_1_0_0_1_n_n_wf

class Facts : Prop extends Facts₀ where

variable [Facts]
-- ==== Proof.EdgeSpec.lean ====
/-
  One edge of the graph at a time, on the extended reals.

  An edge carries thirteen numbers: the six features of its first endpoint, the six of its second, and one
  attribute. A two-layer perceptron (13 → 10 with a rectifier, 10 → 2) is applied to them and, with the endpoints
  exchanged and the other attribute, once more; the two pairs of logits are added and scaled by a common factor.
  Of the resulting pair `z` the kernel keeps the logistic function of `z 1 - z 0`, the reference the second entry of
  the softmax of `z` (shifted by the larger entry). For real `z` these are one number:
  `e^(z1-m) / (e^(z0-m) + e^(z1-m)) = 1 / (1 + e^(-(z1-z0)))`.
-/
import Idealize.ShloMosaic.PureOps.Ideal
import Idealize.ShloMosaic.Lib.ValueIdx

noncomputable section

open scoped BigOperators

namespace Cert.EdgeSpec

open Idealize.ShloMosaic Idealize.ShloMosaic.ValueIdx

/-- The thirteen features of an edge: endpoint `s`'s six, endpoint `t`'s six, the attribute `a`. -/
def feat (s t : Fin 6 → EReal) (a : EReal) (k : Fin 13) : EReal :=
  if h : k.val < 6 then s ⟨k.val, h⟩ else if h' : k.val < 12 then t ⟨k.val - 6, by omega⟩ else a

/-- The hidden layer: `max (f · W1[:, j] + b1 j) 0`. -/
def hidden (W1 : Fin 13 → Fin 10 → EReal) (b1 : Fin 10 → EReal) (f : Fin 13 → EReal) (j : Fin 10) : EReal :=
  max ((∑ k : Fin 13, f k * W1 k j) + b1 j) 0

/-- The output layer: `hidden · W2[:, o] + b2 o`. -/
def logit (W1 : Fin 13 → Fin 10 → EReal) (b1 : Fin 10 → EReal) (W2 : Fin 10 → Fin 2 → EReal) (b2 : Fin 2 → EReal)
    (f : Fin 13 → EReal) (o : Fin 2) : EReal :=
  (∑ j : Fin 10, hidden W1 b1 f j * W2 j o) + b2 o

/-- The symmetrised logits of an edge: the perceptron on `(s, t, a)` plus the perceptron on `(t, s, a')`, times `c`. -/
def score (W1 : Fin 13 → Fin 10 → EReal) (b1 : Fin 10 → EReal) (W2 : Fin 10 → Fin 2 → EReal) (b2 : Fin 2 → EReal)
    (s t : Fin 6 → EReal) (a a' c : EReal) (o : Fin 2) : EReal :=
  (logit W1 b1 W2 b2 (feat s t a) o + logit W1 b1 W2 b2 (feat t s a') o) * c

/-- What the kernel keeps of a pair of logits. -/
def kernOut (z : Fin 2 → EReal) : EReal := Ideal.logistic (z 1 - z 0)

/-- What the reference keeps: the softmax's second entry, the pair shifted by its maximum (a fold from `⊥`, joined
    with `⊥` once more) and the denominator summed from `0`. -/
def refOut (z : Fin 2 → EReal) : EReal :=
  Ideal.div (Ideal.exp (z 1 - max ⊥ ((Finset.univ : Finset (Fin 2)).fold max ⊥ z)))
    (0 + ∑ k : Fin 2, Ideal.exp (z k - max ⊥ ((Finset.univ : Finset (Fin 2)).fold max ⊥ z)))

/-- The coercion of the reals commutes with `max`. -/
private theorem coe_max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The fold of `max` from `⊥` over a real pair, joined with `⊥` once more, is the larger entry. -/
private theorem fold_two (z : Fin 2 → EReal) (a b : ℝ) (ha : z 0 = (a : EReal)) (hb : z 1 = (b : EReal)) :
    max ⊥ ((Finset.univ : Finset (Fin 2)).fold max ⊥ z) = ((max a b : ℝ) : EReal) := by
  have hu : (Finset.univ : Finset (Fin 2)) = insert 0 {1} := by decide
  rw [hu, Finset.fold_insert (by decide), Finset.fold_singleton, ha, hb, max_eq_left bot_le, max_eq_right bot_le,
    coe_max_real]

/-- The real identity: with `m = max a b`, `e^(b-m) / (e^(a-m) + e^(b-m)) = 1 / (1 + e^(-(b-a)))`, because
    `e^(a-m) = e^(b-m) · e^(-(b-a))`. -/
private theorem softmax_logistic (a b : ℝ) :
    (1 + Real.exp (-(b - a)))⁻¹
      = Real.exp (b - max a b) * (1 / (Real.exp (a - max a b) + Real.exp (b - max a b))) := by
  have h : Real.exp (a - max a b) = Real.exp (b - max a b) * Real.exp (-(b - a)) := by
    rw [← Real.exp_add]; congr 1; ring
  rw [h]
  have hp := Real.exp_pos (b - max a b)
  have hq := Real.exp_pos (-(b - a))
  field_simp
  ring

/-- For a real pair the two are one number. -/
theorem out_eq (z : Fin 2 → EReal) (h0 : ∃ r : ℝ, z 0 = (r : EReal)) (h1 : ∃ r : ℝ, z 1 = (r : EReal)) :
    kernOut z = refOut z := by
  obtain ⟨a, ha⟩ := h0
  obtain ⟨b, hb⟩ := h1
  have hpos : Real.exp (a - max a b) + Real.exp (b - max a b) ≠ 0 :=
    ne_of_gt (add_pos (Real.exp_pos _) (Real.exp_pos _))
  unfold kernOut refOut
  rw [fold_two z a b ha hb, Fin.sum_univ_two, ha, hb, ← EReal.coe_sub, ← EReal.coe_sub, ← EReal.coe_sub,
    Ideal.logistic_coe, Ideal.exp_coe, Ideal.exp_coe, zero_add, ← EReal.coe_add, Ideal.div_coe hpos, ← EReal.coe_mul,
    softmax_logistic]

/-- A finite sum of reals is real. -/
private theorem sum_real {ι : Type} (s : Finset ι) (f : ι → EReal) (h : ∀ i, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih
    obtain ⟨q, hq⟩ := h a
    exact ⟨q + r, by rw [Finset.sum_insert ha, hr, hq, EReal.coe_add]⟩

private theorem add_real {x y : EReal} (hx : ∃ r : ℝ, x = (r : EReal)) (hy : ∃ r : ℝ, y = (r : EReal)) :
    ∃ r : ℝ, x + y = (r : EReal) := by
  obtain ⟨p, rfl⟩ := hx
  obtain ⟨q, rfl⟩ := hy
  exact ⟨p + q, (EReal.coe_add p q).symm⟩

private theorem mul_real {x y : EReal} (hx : ∃ r : ℝ, x = (r : EReal)) (hy : ∃ r : ℝ, y = (r : EReal)) :
    ∃ r : ℝ, x * y = (r : EReal) := by
  obtain ⟨p, rfl⟩ := hx
  obtain ⟨q, rfl⟩ := hy
  exact ⟨p * q, (EReal.coe_mul p q).symm⟩

private theorem max_real {x y : EReal} (hx : ∃ r : ℝ, x = (r : EReal)) (hy : ∃ r : ℝ, y = (r : EReal)) :
    ∃ r : ℝ, max x y = (r : EReal) := by
  obtain ⟨p, rfl⟩ := hx
  obtain ⟨q, rfl⟩ := hy
  exact ⟨max p q, coe_max_real p q⟩

/-- The features of an edge with real endpoints and a real attribute are real. -/
private theorem feat_real (s t : Fin 6 → EReal) (a : EReal) (hs : ∀ f, ∃ r : ℝ, s f = (r : EReal))
    (ht : ∀ f, ∃ r : ℝ, t f = (r : EReal)) (ha : ∃ r : ℝ, a = (r : EReal)) (k : Fin 13) :
    ∃ r : ℝ, feat s t a k = (r : EReal) := by
  unfold feat
  split_ifs
  · exact hs _
  · exact ht _
  · exact ha

/-- Real parameters and real features give a real hidden layer. -/
private theorem hidden_real (W1 : Fin 13 → Fin 10 → EReal) (b1 : Fin 10 → EReal) (f : Fin 13 → EReal)
    (hW1 : ∀ k j, ∃ r : ℝ, W1 k j = (r : EReal)) (hb1 : ∀ j, ∃ r : ℝ, b1 j = (r : EReal))
    (hf : ∀ k, ∃ r : ℝ, f k = (r : EReal)) (j : Fin 10) : ∃ r : ℝ, hidden W1 b1 f j = (r : EReal) := by
  unfold hidden
  exact max_real (add_real (sum_real _ _ (fun k => mul_real (hf k) (hW1 k j))) (hb1 j)) ⟨0, EReal.coe_zero.symm⟩

/-- Real parameters and real features give real logits. -/
private theorem logit_real (W1 : Fin 13 → Fin 10 → EReal) (b1 : Fin 10 → EReal) (W2 : Fin 10 → Fin 2 → EReal)
    (b2 : Fin 2 → EReal) (f : Fin 13 → EReal)
    (hW1 : ∀ k j, ∃ r : ℝ, W1 k j = (r : EReal)) (hb1 : ∀ j, ∃ r : ℝ, b1 j = (r : EReal))
    (hW2 : ∀ j o, ∃ r : ℝ, W2 j o = (r : EReal)) (hb2 : ∀ o, ∃ r : ℝ, b2 o = (r : EReal))
    (hf : ∀ k, ∃ r : ℝ, f k = (r : EReal)) (o : Fin 2) : ∃ r : ℝ, logit W1 b1 W2 b2 f o = (r : EReal) := by
  unfold logit
  exact add_real (sum_real _ _ (fun j => mul_real (hidden_real W1 b1 f hW1 hb1 hf j) (hW2 j o))) (hb2 o)

/-- Real data give real logits. -/
theorem score_real (W1 : Fin 13 → Fin 10 → EReal) (b1 : Fin 10 → EReal) (W2 : Fin 10 → Fin 2 → EReal) (b2 : Fin 2 → EReal)
    (s t : Fin 6 → EReal) (a a' c : EReal)
    (hW1 : ∀ k j, ∃ r : ℝ, W1 k j = (r : EReal)) (hb1 : ∀ j, ∃ r : ℝ, b1 j = (r : EReal))
    (hW2 : ∀ j o, ∃ r : ℝ, W2 j o = (r : EReal)) (hb2 : ∀ o, ∃ r : ℝ, b2 o = (r : EReal))
    (hs : ∀ f, ∃ r : ℝ, s f = (r : EReal)) (ht : ∀ f, ∃ r : ℝ, t f = (r : EReal))
    (ha : ∃ r : ℝ, a = (r : EReal)) (ha' : ∃ r : ℝ, a' = (r : EReal)) (hc : ∃ r : ℝ, c = (r : EReal)) (o : Fin 2) :
    ∃ r : ℝ, score W1 b1 W2 b2 s t a a' c o = (r : EReal) := by
  unfold score
  exact mul_real
    (add_real (logit_real W1 b1 W2 b2 _ hW1 hb1 hW2 hb2 (feat_real s t a hs ht ha) o)
      (logit_real W1 b1 W2 b2 _ hW1 hb1 hW2 hb2 (feat_real t s a' ht hs ha') o)) hc

/-! ## The same, read off whole arrays -/

/-- An array of extended reals of two axes. -/
abbrev Arr2 (a b : Nat) : Type := (⟨2, ![a, b]⟩ : Shape).Idx → EReal
/-- An array of extended reals of one axis. -/
abbrev Arr1 (a : Nat) : Type := (⟨1, ![a]⟩ : Shape).Idx → EReal

/-- The logits of edge `e`, from the endpoint rows `gs`, `gt` (one row of six per edge), the two attribute columns
    and the four parameter arrays. -/
def edgeScore (gs gt : Arr2 6400000 6) (ea ea' : Arr2 6400000 1) (W1 : Arr2 13 10) (b1 : Arr1 10) (W2 : Arr2 10 2)
    (b2 : Arr1 2) (c : EReal) (e : Fin 6400000) : Fin 2 → EReal :=
  score (fun k j => W1 (ix2 k j)) (fun j => b1 (ix1 j)) (fun j o => W2 (ix2 j o)) (fun o => b2 (ix1 o))
    (fun f => gs (ix2 e f)) (fun f => gt (ix2 e f)) (ea (ix2 e (0 : Fin 1))) (ea' (ix2 e (0 : Fin 1))) c

/-- A column of per-edge results: `out` of each edge's logits. -/
def edgeColumn (out : (Fin 2 → EReal) → EReal) (gs gt : Arr2 6400000 6) (ea ea' : Arr2 6400000 1) (W1 : Arr2 13 10)
    (b1 : Arr1 10) (W2 : Arr2 10 2) (b2 : Arr1 2) (c : EReal) : Arr2 6400000 1 :=
  fun i => out (edgeScore gs gt ea ea' W1 b1 W2 b2 c ⟨(i 0).val, idx2_lt0 i⟩)

end Cert.EdgeSpec

end
-- ==== Proof.KernelBody.lean ====
/-
  What one run of the kernel's body leaves in its output block, one lane at a time.

  Lane `l` of the block is the logistic function of the difference of edge `l`'s two symmetrised logits: the
  thirteen feature rows are the two endpoint blocks and an attribute block stacked along the sublane axis, the two
  matrix products contract that axis against the transposed weights, and the rectifier, the biases and the halving
  are pointwise.
-/
import proofs.«148820_j61598420959300_1_alg».proof.Proof.Gen.KernelIdeal.Frame
import proofs.«148820_j61598420959300_1_alg».proof.Proof.EdgeSpec
import Idealize.ShloMosaic.Lib.Pipeline.Value
import Idealize.ShloMosaic.Lib.ValueIdx
import Idealize.ShloMosaic.PureOps.Ideal.Laws

noncomputable section

open scoped BigOperators

namespace Cert.KernelIdeal.EdgeBody

open Cert.KernelIdeal Cert.KernelIdeal.Gen Idealize.ShloMosaic Idealize.ShloMosaic.ValueIdx

/-- Three blocks stacked along the sublane axis (six rows, six rows, one row), read at row `k` and lane `l`: the
    thirteen features of edge `l`. -/
theorem stack_apply (a b : FVec Ideal S6x32768 .f32) (c : FVec Ideal S1x32768 .f32) (k : Fin 13) (l : Fin 32768) :
    concatenate S13x32768 0 [⟨S6x32768, a⟩, ⟨S6x32768, b⟩, ⟨S1x32768, c⟩]
        concatenates_S6x32768_S6x32768_S1x32768_S13x32768_d0 (ix2 k l)
      = Cert.EdgeSpec.feat (fun f => a (ix2 f l)) (fun f => b (ix2 f l)) (c (ix2 (0 : Fin 1) l)) k := by
  unfold Cert.EdgeSpec.feat
  by_cases h : k.val < 6
  · rw [dif_pos h]
    exact concatenate_apply_piece 0 _ _ (ix2 k l) 0 (by show (0 : Nat) < 3; omega) S6x32768 a rfl rfl 0 rfl (ix2 (⟨k.val, h⟩ : Fin 6) l)
      (fun b hb => match b with
        | ⟨0, _⟩ => absurd rfl hb
        | ⟨1, _⟩ => rfl)
      (by show 0 + k.val = k.val; omega)
  · rw [dif_neg h]
    by_cases h' : k.val < 12
    · rw [dif_pos h']
      exact concatenate_apply_piece 0 _ _ (ix2 k l) 1 (by show (1 : Nat) < 3; omega) S6x32768 b rfl rfl 6 rfl
        (ix2 (⟨k.val - 6, by omega⟩ : Fin 6) l)
        (fun b hb => match b with
          | ⟨0, _⟩ => absurd rfl hb
          | ⟨1, _⟩ => rfl)
        (by show 6 + (k.val - 6) = k.val; omega)
    · rw [dif_neg h']
      exact concatenate_apply_piece 0 _ _ (ix2 k l) 2 (by show (2 : Nat) < 3; omega) S1x32768 c rfl rfl 12 rfl
        (ix2 (0 : Fin 1) l)
        (fun b hb => match b with
          | ⟨0, _⟩ => absurd rfl hb
          | ⟨1, _⟩ => rfl)
        (by show 12 + 0 = k.val; have := k.isLt; omega)

/-! ## The two matrix products at an index -/

theorem lhs_mm1_0 (i : S10x32768.Idx) (q : dot_S10x13_S13x32768_S10x32768_1_0_0_1_n_n.contr.Idx) :
    (dot_S10x13_S13x32768_S10x32768_1_0_0_1_n_n.lhsIdx i q 0).val = (i 0).val := by
  unfold DotDims.lhsIdx
  rw [dif_neg (show ¬(0 : Fin S10x13.rank) ∈ dot_S10x13_S13x32768_S10x32768_1_0_0_1_n_n.lhsBatch by decide), dif_pos (show (0 : Fin S10x13.rank) ∈ dot_S10x13_S13x32768_S10x32768_1_0_0_1_n_n.lhsNonContracting by decide)]
  rfl
theorem lhs_mm1_1 (i : S10x32768.Idx) (q : dot_S10x13_S13x32768_S10x32768_1_0_0_1_n_n.contr.Idx) :
    (dot_S10x13_S13x32768_S10x32768_1_0_0_1_n_n.lhsIdx i q 1).val = (q ⟨0, by decide⟩).val :=
  dot_S10x13_S13x32768_S10x32768_1_0_0_1_n_n.lhsIdx_val_of_single rfl i q
theorem rhs_mm1_0 (i : S10x32768.Idx) (q : dot_S10x13_S13x32768_S10x32768_1_0_0_1_n_n.contr.Idx) :
    (dot_S10x13_S13x32768_S10x32768_1_0_0_1_n_n.rhsIdx i q 0).val = (q ⟨0, by decide⟩).val :=
  dot_S10x13_S13x32768_S10x32768_1_0_0_1_n_n.rhsIdx_val_of_single rfl i q
theorem rhs_mm1_1 (i : S10x32768.Idx) (q : dot_S10x13_S13x32768_S10x32768_1_0_0_1_n_n.contr.Idx) :
    (dot_S10x13_S13x32768_S10x32768_1_0_0_1_n_n.rhsIdx i q 1).val = (i 1).val := by
  unfold DotDims.rhsIdx
  rw [dif_neg (show ¬(1 : Fin S13x32768.rank) ∈ dot_S10x13_S13x32768_S10x32768_1_0_0_1_n_n.rhsBatch by decide), dif_pos (show (1 : Fin S13x32768.rank) ∈ dot_S10x13_S13x32768_S10x32768_1_0_0_1_n_n.rhsNonContracting by decide)]
  rfl

/-- The first product (ten by thirteen times thirteen by the lanes) into the zero block, at row `j` and lane `l`. -/
theorem mm1_apply (A : FVec Ideal S10x13 .bf16) (B : FVec Ideal S13x32768 .bf16) (j : Fin 10) (l : Fin 32768) :
    matmul dot_S10x13_S13x32768_S10x32768_1_0_0_1_n_n none A B (constant (F := Ideal) S10x32768 .f32 0x00000000#32) (ix2 j l)
      = ∑ k : Fin 13, A (ix2 j k) * B (ix2 k l) := by
  show FloatOps.matmul dot_S10x13_S13x32768_S10x32768_1_0_0_1_n_n none A B (constant (F := Ideal) S10x32768 .f32 0x00000000#32) (ix2 j l) = _
  rw [Ideal.matmul_constant_zero_apply, ← Equiv.sum_comp (contrEquiv1 dot_S10x13_S13x32768_S10x32768_1_0_0_1_n_n 13 rfl rfl).symm]
  refine Finset.sum_congr rfl fun k _ => ?_
  have hk := contrEquiv1_symm_val dot_S10x13_S13x32768_S10x32768_1_0_0_1_n_n 13 rfl rfl k
  have el : dot_S10x13_S13x32768_S10x32768_1_0_0_1_n_n.lhsIdx (ix2 j l) ((contrEquiv1 dot_S10x13_S13x32768_S10x32768_1_0_0_1_n_n 13 rfl rfl).symm k) = ix2 j k := funext fun a => Fin.ext (by
    match a with
    | ⟨0, _⟩ => exact lhs_mm1_0 _ _
    | ⟨1, _⟩ => exact (lhs_mm1_1 _ _).trans hk)
  have er : dot_S10x13_S13x32768_S10x32768_1_0_0_1_n_n.rhsIdx (ix2 j l) ((contrEquiv1 dot_S10x13_S13x32768_S10x32768_1_0_0_1_n_n 13 rfl rfl).symm k) = ix2 k l := funext fun a => Fin.ext (by
    match a with
    | ⟨0, _⟩ => exact (rhs_mm1_0 _ _).trans hk
    | ⟨1, _⟩ => exact rhs_mm1_1 _ _)
  rw [el, er]

theorem lhs_mm2_0 (i : S2x32768.Idx) (q : dot_S2x10_S10x32768_S2x32768_1_0_0_1_n_n.contr.Idx) :
    (dot_S2x10_S10x32768_S2x32768_1_0_0_1_n_n.lhsIdx i q 0).val = (i 0).val := by
  unfold DotDims.lhsIdx
  rw [dif_neg (show ¬(0 : Fin S2x10.rank) ∈ dot_S2x10_S10x32768_S2x32768_1_0_0_1_n_n.lhsBatch by decide), dif_pos (show (0 : Fin S2x10.rank) ∈ dot_S2x10_S10x32768_S2x32768_1_0_0_1_n_n.lhsNonContracting by decide)]
  rfl
theorem lhs_mm2_1 (i : S2x32768.Idx) (q : dot_S2x10_S10x32768_S2x32768_1_0_0_1_n_n.contr.Idx) :
    (dot_S2x10_S10x32768_S2x32768_1_0_0_1_n_n.lhsIdx i q 1).val = (q ⟨0, by decide⟩).val :=
  dot_S2x10_S10x32768_S2x32768_1_0_0_1_n_n.lhsIdx_val_of_single rfl i q
theorem rhs_mm2_0 (i : S2x32768.Idx) (q : dot_S2x10_S10x32768_S2x32768_1_0_0_1_n_n.contr.Idx) :
    (dot_S2x10_S10x32768_S2x32768_1_0_0_1_n_n.rhsIdx i q 0).val = (q ⟨0, by decide⟩).val :=
  dot_S2x10_S10x32768_S2x32768_1_0_0_1_n_n.rhsIdx_val_of_single rfl i q
theorem rhs_mm2_1 (i : S2x32768.Idx) (q : dot_S2x10_S10x32768_S2x32768_1_0_0_1_n_n.contr.Idx) :
    (dot_S2x10_S10x32768_S2x32768_1_0_0_1_n_n.rhsIdx i q 1).val = (i 1).val := by
  unfold DotDims.rhsIdx
  rw [dif_neg (show ¬(1 : Fin S10x32768.rank) ∈ dot_S2x10_S10x32768_S2x32768_1_0_0_1_n_n.rhsBatch by decide), dif_pos (show (1 : Fin S10x32768.rank) ∈ dot_S2x10_S10x32768_S2x32768_1_0_0_1_n_n.rhsNonContracting by decide)]
  rfl

/-- The second product (two by ten times ten by the lanes) into the zero block, at row `o` and lane `l`. -/
theorem mm2_apply (A : FVec Ideal S2x10 .bf16) (B : FVec Ideal S10x32768 .bf16) (o : Fin 2) (l : Fin 32768) :
    matmul dot_S2x10_S10x32768_S2x32768_1_0_0_1_n_n none A B (constant (F := Ideal) S2x32768 .f32 0x00000000#32) (ix2 o l)
      = ∑ j : Fin 10, A (ix2 o j) * B (ix2 j l) := by
  show FloatOps.matmul dot_S2x10_S10x32768_S2x32768_1_0_0_1_n_n none A B (constant (F := Ideal) S2x32768 .f32 0x00000000#32) (ix2 o l) = _
  rw [Ideal.matmul_constant_zero_apply, ← Equiv.sum_comp (contrEquiv1 dot_S2x10_S10x32768_S2x32768_1_0_0_1_n_n 10 rfl rfl).symm]
  refine Finset.sum_congr rfl fun k _ => ?_
  have hk := contrEquiv1_symm_val dot_S2x10_S10x32768_S2x32768_1_0_0_1_n_n 10 rfl rfl k
  have el : dot_S2x10_S10x32768_S2x32768_1_0_0_1_n_n.lhsIdx (ix2 o l) ((contrEquiv1 dot_S2x10_S10x32768_S2x32768_1_0_0_1_n_n 10 rfl rfl).symm k) = ix2 o k := funext fun a => Fin.ext (by
    match a with
    | ⟨0, _⟩ => exact lhs_mm2_0 _ _
    | ⟨1, _⟩ => exact (lhs_mm2_1 _ _).trans hk)
  have er : dot_S2x10_S10x32768_S2x32768_1_0_0_1_n_n.rhsIdx (ix2 o l) ((contrEquiv1 dot_S2x10_S10x32768_S2x32768_1_0_0_1_n_n 10 rfl rfl).symm k) = ix2 k l := funext fun a => Fin.ext (by
    match a with
    | ⟨0, _⟩ => exact (rhs_mm2_0 _ _).trans hk
    | ⟨1, _⟩ => exact rhs_mm2_1 _ _)
  rw [el, er]

/-! ## The layout operations at an index -/

/-- The transposed first-layer weights: entry `(j, k)` is entry `(k, j)` of the weights. -/
theorem pay4_apply (w : Vec Ideal S13x10 .f32) (j : Fin 10) (k : Fin 13) :
    k0_pay4 (F := Ideal) w (ix2 j k) = w (ix2 k j) := by
  unfold k0_pay4
  exact transpose_apply [1, 0] w transposes_S13x10_p1_0_S10x13 (ix2 j k) (ix2 k j) (fun b => match b with
    | ⟨0, _⟩ => rfl
    | ⟨1, _⟩ => rfl)

/-- The transposed second-layer weights: entry `(o, j)` is entry `(j, o)` of the weights. -/
theorem pay5_apply (w : Vec Ideal S10x2 .f32) (o : Fin 2) (j : Fin 10) :
    k0_pay5 (F := Ideal) w (ix2 o j) = w (ix2 j o) := by
  unfold k0_pay5
  exact transpose_apply [1, 0] w transposes_S10x2_p1_0_S2x10 (ix2 o j) (ix2 j o) (fun b => match b with
    | ⟨0, _⟩ => rfl
    | ⟨1, _⟩ => rfl)

/-- The same-shape casts of the endpoint blocks are the blocks. -/
theorem pay2_eq (x : Vec Ideal S6x32768 .f32) : k0_pay2 (F := Ideal) x = x := by
  unfold k0_pay2
  exact shapeCast_self x shapeCasts_S6x32768_S6x32768
theorem pay3_eq (x : Vec Ideal S6x32768 .f32) : k0_pay3 (F := Ideal) x = x := by
  unfold k0_pay3
  exact shapeCast_self x shapeCasts_S6x32768_S6x32768

/-- The ten biases as a column laid along every lane. -/
theorem col10_apply (b : Vec Ideal S10 .f32) (j : Fin 10) (l : Fin 32768) :
    broadcastTo S10x32768 (shapeCast S10x1 b shapeCasts_S10_S10x1) broadcasts_S10x1_S10x32768 (ix2 j l) = b (ix1 j) := by
  refine (broadcastTo_apply (shapeCast S10x1 b shapeCasts_S10_S10x1) broadcasts_S10x1_S10x32768 (ix2 j l)
    (ix2 j (0 : Fin 1)) (fun a => match a with
      | ⟨0, _⟩ => by show j.val = if (10 : Nat) = 1 then 0 else j.val; rw [if_neg (by decide)]
      | ⟨1, _⟩ => by show (0 : Nat) = if (1 : Nat) = 1 then 0 else l.val; rw [if_pos rfl])).trans ?_
  exact shapeCast_apply b shapeCasts_S10_S10x1 (ix2 j (0 : Fin 1)) (ix1 j) (by
    rw [Shape.rowMajor_val_one, Shape.rowMajor_val_two]
    show j.val = j.val * 1 + 0
    omega)

/-- The two biases as a column laid along every lane. -/
theorem col2_apply (b : Vec Ideal S2 .f32) (o : Fin 2) (l : Fin 32768) :
    broadcastTo S2x32768 (shapeCast S2x1 b shapeCasts_S2_S2x1) broadcasts_S2x1_S2x32768 (ix2 o l) = b (ix1 o) := by
  refine (broadcastTo_apply (shapeCast S2x1 b shapeCasts_S2_S2x1) broadcasts_S2x1_S2x32768 (ix2 o l)
    (ix2 o (0 : Fin 1)) (fun a => match a with
      | ⟨0, _⟩ => by show o.val = if (2 : Nat) = 1 then 0 else o.val; rw [if_neg (by decide)]
      | ⟨1, _⟩ => by show (0 : Nat) = if (1 : Nat) = 1 then 0 else l.val; rw [if_pos rfl])).trans ?_
  exact shapeCast_apply b shapeCasts_S2_S2x1 (ix2 o (0 : Fin 1)) (ix1 o) (by
    rw [Shape.rowMajor_val_one, Shape.rowMajor_val_two]
    show o.val = o.val * 1 + 0
    omega)

/-- Row one of a two-row block, flattened, at lane `l`. -/
theorem row1_apply (v : FVec Ideal S2x32768 .f32) (l : Fin 32768) :
    shapeCast S32768 (extractStridedSlice S1x32768 ![1, 0] v slices_S2x32768_o1_0_S1x32768) shapeCasts_S1x32768_S32768 (ix1 l)
      = v (ix2 (1 : Fin 2) l) := by
  refine (shapeCast_apply _ shapeCasts_S1x32768_S32768 (ix1 l) (ix2 (0 : Fin 1) l) (by
    rw [Shape.rowMajor_val_one, Shape.rowMajor_val_two]
    show 0 * 32768 + l.val = l.val
    omega)).trans ?_
  exact extractStridedSlice_apply ![1, 0] v slices_S2x32768_o1_0_S1x32768 (ix2 (0 : Fin 1) l) (ix2 (1 : Fin 2) l)
    (fun a => match a with
      | ⟨0, _⟩ => rfl
      | ⟨1, _⟩ => by show l.val = 0 + l.val; omega)

/-- Row zero of a two-row block, flattened, at lane `l`. -/
theorem row0_apply (v : FVec Ideal S2x32768 .f32) (l : Fin 32768) :
    shapeCast S32768 (extractStridedSlice S1x32768 ![0, 0] v slices_S2x32768_o0_0_S1x32768) shapeCasts_S1x32768_S32768 (ix1 l)
      = v (ix2 (0 : Fin 2) l) := by
  refine (shapeCast_apply _ shapeCasts_S1x32768_S32768 (ix1 l) (ix2 (0 : Fin 1) l) (by
    rw [Shape.rowMajor_val_one, Shape.rowMajor_val_two]
    show 0 * 32768 + l.val = l.val
    omega)).trans ?_
  exact extractStridedSlice_apply ![0, 0] v slices_S2x32768_o0_0_S1x32768 (ix2 (0 : Fin 1) l) (ix2 (0 : Fin 2) l)
    (fun a => match a with
      | ⟨0, _⟩ => rfl
      | ⟨1, _⟩ => by show l.val = 0 + l.val; omega)

/-! ## The body's arithmetic, stage by stage -/

/-- The hidden block over a block of thirteen feature rows: the rectifier of the first product plus the bias column. -/
def hiddenBlock (w : FVec Ideal S10x13 .bf16) (b : Vec Ideal S10 .f32) (f : FVec Ideal S13x32768 .f32) :
    FVec Ideal S10x32768 .bf16 :=
  truncf .bf16 (maximumf (addf (matmul dot_S10x13_S13x32768_S10x32768_1_0_0_1_n_n none w (truncf .bf16 f bitsLt_bf16_f32)
      (constant (F := Ideal) S10x32768 .f32 0x00000000#32))
    (broadcastTo S10x32768 (shapeCast S10x1 b shapeCasts_S10_S10x1) broadcasts_S10x1_S10x32768))
    (broadcast S10x32768 (Scalar.ofBits (F := Ideal) .f32 0x00000000#32))) bitsLt_bf16_f32

/-- The hidden block at unit `j` and lane `l`. -/
theorem hiddenBlock_apply (w : FVec Ideal S10x13 .bf16) (b : Vec Ideal S10 .f32) (f : FVec Ideal S13x32768 .f32)
    (j : Fin 10) (l : Fin 32768) :
    hiddenBlock w b f (ix2 j l) = max ((∑ k : Fin 13, w (ix2 j k) * f (ix2 k l)) + b (ix1 j)) 0 := by
  unfold hiddenBlock
  show max (matmul dot_S10x13_S13x32768_S10x32768_1_0_0_1_n_n none w (truncf .bf16 f bitsLt_bf16_f32)
      (constant (F := Ideal) S10x32768 .f32 0x00000000#32) (ix2 j l)
    + broadcastTo S10x32768 (shapeCast S10x1 b shapeCasts_S10_S10x1) broadcasts_S10x1_S10x32768 (ix2 j l))
    (Ideal.ofBits .f32 0x00000000#32) = _
  rw [mm1_apply, col10_apply, Ideal.ofBits_zero_f32]
  rfl

/-- The second product over the hidden block of three stacked blocks, at output `o` and lane `l`: the hidden units of
    edge `l` against column `o` of the second-layer weights. -/
theorem prod_apply (a b : FVec Ideal S6x32768 .f32) (c : FVec Ideal S1x32768 .f32) (x4 : Vec Ideal S13x10 .f32)
    (x5 : Vec Ideal S10 .f32) (x6 : Vec Ideal S10x2 .f32) (o : Fin 2) (l : Fin 32768) :
    matmul dot_S2x10_S10x32768_S2x32768_1_0_0_1_n_n none (k0_pay5 (F := Ideal) x6)
        (hiddenBlock (k0_pay4 (F := Ideal) x4) x5
          (concatenate S13x32768 0 [⟨S6x32768, a⟩, ⟨S6x32768, b⟩, ⟨S1x32768, c⟩]
            concatenates_S6x32768_S6x32768_S1x32768_S13x32768_d0))
        (constant (F := Ideal) S2x32768 .f32 0x00000000#32) (ix2 o l)
      = ∑ j : Fin 10, Cert.EdgeSpec.hidden (fun k j => x4 (ix2 k j)) (fun j => x5 (ix1 j))
          (Cert.EdgeSpec.feat (fun f => a (ix2 f l)) (fun f => b (ix2 f l)) (c (ix2 (0 : Fin 1) l))) j * x6 (ix2 j o) := by
  rw [mm2_apply]
  refine Finset.sum_congr rfl fun j _ => ?_
  rw [pay5_apply, hiddenBlock_apply]
  refine (mul_comm _ _).trans (congrArg (· * x6 (ix2 j o)) ?_)
  unfold Cert.EdgeSpec.hidden
  refine congrArg (fun s => max (s + x5 (ix1 j)) 0) (Finset.sum_congr rfl fun k _ => ?_)
  rw [pay4_apply, stack_apply]
  exact mul_comm _ _

/-- The first pass (endpoints in order, first attribute) is the second product over the hidden block of the stacked rows, plus the output bias column. -/
theorem pay6_eq (x0 x1 : Vec Ideal S6x32768 .f32) (x2 : Vec Ideal S1x32768 .f32) (x4 : Vec Ideal S13x10 .f32)
    (x5 : Vec Ideal S10 .f32) (x6 : Vec Ideal S10x2 .f32) (x7 : Vec Ideal S2 .f32) :
    k0_pay6 (F := Ideal) x0 x1 x2 x4 x5 x6 x7
      = addf (matmul dot_S2x10_S10x32768_S2x32768_1_0_0_1_n_n none (k0_pay5 (F := Ideal) x6)
          (hiddenBlock (k0_pay4 (F := Ideal) x4) x5
            (concatenate S13x32768 0 [⟨S6x32768, k0_pay2 (F := Ideal) x0⟩, ⟨S6x32768, k0_pay3 (F := Ideal) x1⟩,
              ⟨S1x32768, shapeCast S1x32768 x2 shapeCasts_S1x32768_S1x32768⟩]
              concatenates_S6x32768_S6x32768_S1x32768_S13x32768_d0))
          (constant (F := Ideal) S2x32768 .f32 0x00000000#32))
        (broadcastTo S2x32768 (shapeCast S2x1 x7 shapeCasts_S2_S2x1) broadcasts_S2x1_S2x32768) := rfl

/-- The second pass (endpoints exchanged, second attribute) is the second product over the hidden block of the stacked rows; its bias is added afterwards. -/
theorem pay7_eq (x0 x1 : Vec Ideal S6x32768 .f32) (x3 : Vec Ideal S1x32768 .f32) (x4 : Vec Ideal S13x10 .f32)
    (x5 : Vec Ideal S10 .f32) (x6 : Vec Ideal S10x2 .f32) :
    k0_pay7 (F := Ideal) x0 x1 x3 x4 x5 x6
      = matmul dot_S2x10_S10x32768_S2x32768_1_0_0_1_n_n none (k0_pay5 (F := Ideal) x6)
          (hiddenBlock (k0_pay4 (F := Ideal) x4) x5
            (concatenate S13x32768 0 [⟨S6x32768, k0_pay3 (F := Ideal) x1⟩, ⟨S6x32768, k0_pay2 (F := Ideal) x0⟩,
              ⟨S1x32768, shapeCast S1x32768 x3 shapeCasts_S1x32768_S1x32768⟩]
              concatenates_S6x32768_S6x32768_S1x32768_S13x32768_d0))
          (constant (F := Ideal) S2x32768 .f32 0x00000000#32) := rfl

/-- The first pass at output `o` and lane `l`: the logit of edge `l`. -/
theorem pay6_apply (x0 x1 : Vec Ideal S6x32768 .f32) (x2 : Vec Ideal S1x32768 .f32) (x4 : Vec Ideal S13x10 .f32)
    (x5 : Vec Ideal S10 .f32) (x6 : Vec Ideal S10x2 .f32) (x7 : Vec Ideal S2 .f32) (o : Fin 2) (l : Fin 32768) :
    k0_pay6 (F := Ideal) x0 x1 x2 x4 x5 x6 x7 (ix2 o l)
      = Cert.EdgeSpec.logit (fun k j => x4 (ix2 k j)) (fun j => x5 (ix1 j)) (fun j o => x6 (ix2 j o)) (fun o => x7 (ix1 o))
          (Cert.EdgeSpec.feat (fun f => x0 (ix2 f l)) (fun f => x1 (ix2 f l)) (x2 (ix2 (0 : Fin 1) l))) o := by
  rw [pay6_eq, pay2_eq, pay3_eq, shapeCast_self]
  refine (congrArg₂ (· + ·) (prod_apply x0 x1 x2 x4 x5 x6 o l) (col2_apply x7 o l)).trans ?_
  rfl

/-- The second pass at output `o` and lane `l`: the logit of edge `l` reversed, short of its bias. -/
theorem pay7_apply (x0 x1 : Vec Ideal S6x32768 .f32) (x3 : Vec Ideal S1x32768 .f32) (x4 : Vec Ideal S13x10 .f32)
    (x5 : Vec Ideal S10 .f32) (x6 : Vec Ideal S10x2 .f32) (o : Fin 2) (l : Fin 32768) :
    k0_pay7 (F := Ideal) x0 x1 x3 x4 x5 x6 (ix2 o l)
      = ∑ j : Fin 10, Cert.EdgeSpec.hidden (fun k j => x4 (ix2 k j)) (fun j => x5 (ix1 j))
          (Cert.EdgeSpec.feat (fun f => x1 (ix2 f l)) (fun f => x0 (ix2 f l)) (x3 (ix2 (0 : Fin 1) l))) j * x6 (ix2 j o) := by
  rw [pay7_eq, pay2_eq, pay3_eq, shapeCast_self]
  exact prod_apply x1 x0 x3 x4 x5 x6 o l

/-- The two passes added, the second with its bias column, and halved. -/
def mixed (b : Vec Ideal S2 .f32) (p q : FVec Ideal S2x32768 .f32) : FVec Ideal S2x32768 .f32 :=
  mulf (addf p (addf q (broadcastTo S2x32768 (shapeCast S2x1 b shapeCasts_S2_S2x1) broadcasts_S2x1_S2x32768)))
    (broadcast S2x32768 (Scalar.ofBits (F := Ideal) .f32 0x3F000000#32))

theorem mixed_apply (b : Vec Ideal S2 .f32) (p q : FVec Ideal S2x32768 .f32) (o : Fin 2) (l : Fin 32768) :
    mixed b p q (ix2 o l) = (p (ix2 o l) + (q (ix2 o l) + b (ix1 o))) * Ideal.ofBits .f32 0x3F000000#32 := by
  unfold mixed
  show (p (ix2 o l) + (q (ix2 o l)
    + broadcastTo S2x32768 (shapeCast S2x1 b shapeCasts_S2_S2x1) broadcasts_S2x1_S2x32768 (ix2 o l)))
    * Ideal.ofBits .f32 0x3F000000#32 = _
  rw [col2_apply]

/-- The stored value is the logistic function of row one less row zero of the halved sum. -/
theorem pay1_eq (b : Vec Ideal S2 .f32) (p q : FVec Ideal S2x32768 .f32) :
    k0_pay1 (F := Ideal) b p q
      = logistic (subf
          (shapeCast S32768 (extractStridedSlice S1x32768 ![1, 0] (mixed b p q) slices_S2x32768_o1_0_S1x32768)
            shapeCasts_S1x32768_S32768)
          (shapeCast S32768 (extractStridedSlice S1x32768 ![0, 0] (mixed b p q) slices_S2x32768_o0_0_S1x32768)
            shapeCasts_S1x32768_S32768)) := rfl

theorem pay1_apply (b : Vec Ideal S2 .f32) (p q : FVec Ideal S2x32768 .f32) (l : Fin 32768) :
    k0_pay1 (F := Ideal) b p q (ix1 l)
      = Ideal.logistic ((p (ix2 (1 : Fin 2) l) + (q (ix2 (1 : Fin 2) l) + b (ix1 (1 : Fin 2)))) * Ideal.ofBits .f32 0x3F000000#32
          - (p (ix2 (0 : Fin 2) l) + (q (ix2 (0 : Fin 2) l) + b (ix1 (0 : Fin 2)))) * Ideal.ofBits .f32 0x3F000000#32) := by
  rw [pay1_eq]
  show Ideal.logistic
    (shapeCast S32768 (extractStridedSlice S1x32768 ![1, 0] (mixed b p q) slices_S2x32768_o1_0_S1x32768)
        shapeCasts_S1x32768_S32768 (ix1 l)
      - shapeCast S32768 (extractStridedSlice S1x32768 ![0, 0] (mixed b p q) slices_S2x32768_o0_0_S1x32768)
        shapeCasts_S1x32768_S32768 (ix1 l)) = _
  rw [row1_apply, row0_apply, mixed_apply, mixed_apply]

/-- Lane `l` of the output block, from the eight input blocks. -/
theorem out_lane (x0 x1 : Vec Ideal S6x32768 .f32) (x2 x3 : Vec Ideal S1x32768 .f32) (x4 : Vec Ideal S13x10 .f32)
    (x5 : Vec Ideal S10 .f32) (x6 : Vec Ideal S10x2 .f32) (x7 : Vec Ideal S2 .f32) (l : Fin 32768) :
    out0_8 (F := Ideal) x0 x1 x2 x3 x4 x5 x6 x7 (ix1 l)
      = Cert.EdgeSpec.kernOut (Cert.EdgeSpec.score (fun k j => x4 (ix2 k j)) (fun j => x5 (ix1 j)) (fun j o => x6 (ix2 j o))
          (fun o => x7 (ix1 o)) (fun f => x0 (ix2 f l)) (fun f => x1 (ix2 f l)) (x2 (ix2 (0 : Fin 1) l)) (x3 (ix2 (0 : Fin 1) l))
          (Ideal.ofBits .f32 0x3F000000#32)) := by
  have hz : (![0] : Fin 1 → Nat) = fun _ => 0 := funext fun a => by fin_cases a <;> rfl
  have hz2 : (![0, 0] : Fin 2 → Nat) = fun _ => 0 := funext fun a => by fin_cases a <;> rfl
  unfold out0_8
  rw [View.canon_unit_zero hz]
  simp only [View.ld_unit_zero (S := S6x32768) hz2, View.ld_unit_zero (S := S1x32768) hz2,
    View.ld_unit_zero (S := S13x10) hz2, View.ld_unit_zero (S := S10) hz, View.ld_unit_zero (S := S10x2) hz2,
    View.ld_unit_zero (S := S2) hz]
  rw [pay1_apply, pay6_apply, pay6_apply, pay7_apply, pay7_apply]
  rfl

end Cert.KernelIdeal.EdgeBody

end
-- ==== Proof.KernelArray.lean ====
/-
  From the body's output block to the program's result column.

  The kernel walks 196 blocks of 32768 consecutive edges. At block `t` every per-edge input window holds columns
  `t * 32768 … t * 32768 + 32767` of its (zero-padded, feature-major) array and the four parameter windows hold their
  whole arrays, so lane `l` of what the body writes back is the logistic of the logit difference of column
  `t * 32768 + l`. The 196 output blocks tile the padded result, which therefore is that function of the column
  index everywhere; the program keeps its first 6400000 entries as a column, and there the padded feature-major
  arrays are the gathered rows and the attribute columns transposed.
-/
import proofs.«148820_j61598420959300_1_alg».proof.Proof.Gen.KernelIdeal.Frame
import proofs.«148820_j61598420959300_1_alg».proof.Proof.KernelBody
import proofs.«148820_j61598420959300_1_alg».proof.Proof.EdgeSpec
import Idealize.ShloMosaic.Lib.Pipeline.Value
import Idealize.ShloMosaic.Lib.ValueIdx
import Idealize.ShloMosaic.Lib.StableHlo.Run
import Idealize.ShloMosaic.Lib.KernelVsHost

set_option maxRecDepth 16384

noncomputable section

open scoped BigOperators

namespace Cert.KernelIdeal.EdgeArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat Cfg Window)

variable (m : (ℓ : Loc nD τ sig) → Buf (Elt Ideal) ℓ) (ρ : Dev nD → PrngReg)

/-- Column `j` of the padded result: the logistic of the logit difference computed from column `j` of the four padded
    feature-major arrays and the four parameter arrays, as the region finds them. -/
def paddedAt (c : Dev nD) (j : Fin 6422528) : EReal :=
  Cert.EdgeSpec.kernOut (Cert.EdgeSpec.score
    (fun k j' => V m c main_arg4 (ix2 k j')) (fun j' => V m c main_arg5 (ix1 j'))
    (fun j' o => V m c main_arg6 (ix2 j' o)) (fun o => V m c main_arg7 (ix1 o))
    (fun f => V m c main_v22 (ix2 f j)) (fun f => V m c main_v23 (ix2 f j))
    (V m c main_v24 (ix2 (0 : Fin 1) j)) (V m c main_v25 (ix2 (0 : Fin 1) j))
    (Ideal.ofBits .f32 0x3F000000#32))

/-- The padded result as one function of the column index. -/
def padded (c : Dev nD) : S6422528.Idx → EReal := fun i => paddedAt m c ⟨(i 0).val, (i 0).isLt⟩

theorem hz1 : (![0] : Fin 1 → Nat) = fun _ => 0 := funext fun a => by fin_cases a <;> rfl

/-- The printed index maps over the grid: the per-edge windows and the output move one block per point along the
    edge axis, the parameter windows stay. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 1) = t.val :=
  (by decide +kernel : ∀ t : Fin grid0.N, _)

/-- A grid point is one of 196. -/
theorem lt196 (t : Fin cfg0.N) : t.val < 196 := by
  have h := t.isLt
  have e : cfg0.N = 196 := N_0
  omega

/-! ## The input blocks at a point, read at literal coordinates -/

/-- Block `t` of the first endpoint's padded feature-major array: its columns `t * 32768 + l`. -/
theorem blk0 (c : Dev nD) (t : Fin cfg0.N) (f : Fin 6) (l : Fin 32768) :
    iblk m c 0 t (ix2 f l) = V m c main_v22 (ix2 f ⟨t.val * 32768 + l.val, by have := lt196 t; have := l.isLt; omega⟩) := by
  obtain ⟨e0, e1, -⟩ := idx_facts t
  show V m c main_v22 (((cfg0.win 0).blk t).view.emb (ix2 f l)) = _
  refine congrArg (V m c main_v22) (funext fun a => Fin.ext ?_)
  match a with
  | ⟨0, _⟩ => show win0_0.index t (0 : Fin 2) * 6 + 1 * f.val = f.val; omega
  | ⟨1, _⟩ => show win0_0.index t (1 : Fin 2) * 32768 + 1 * l.val = t.val * 32768 + l.val; omega

/-- Block `t` of the second endpoint's padded feature-major array. -/
theorem blk1 (c : Dev nD) (t : Fin cfg0.N) (f : Fin 6) (l : Fin 32768) :
    iblk m c 1 t (ix2 f l) = V m c main_v23 (ix2 f ⟨t.val * 32768 + l.val, by have := lt196 t; have := l.isLt; omega⟩) := by
  obtain ⟨-, -, e0, e1, -⟩ := idx_facts t
  show V m c main_v23 (((cfg0.win 1).blk t).view.emb (ix2 f l)) = _
  refine congrArg (V m c main_v23) (funext fun a => Fin.ext ?_)
  match a with
  | ⟨0, _⟩ => show win0_1.index t (0 : Fin 2) * 6 + 1 * f.val = f.val; omega
  | ⟨1, _⟩ => show win0_1.index t (1 : Fin 2) * 32768 + 1 * l.val = t.val * 32768 + l.val; omega

/-- Block `t` of the padded attribute row. -/
theorem blk2 (c : Dev nD) (t : Fin cfg0.N) (z : Fin 1) (l : Fin 32768) :
    iblk m c 2 t (ix2 z l) = V m c main_v24 (ix2 z ⟨t.val * 32768 + l.val, by have := lt196 t; have := l.isLt; omega⟩) := by
  obtain ⟨-, -, -, -, e0, e1, -⟩ := idx_facts t
  show V m c main_v24 (((cfg0.win 2).blk t).view.emb (ix2 z l)) = _
  refine congrArg (V m c main_v24) (funext fun a => Fin.ext ?_)
  match a with
  | ⟨0, _⟩ => show win0_2.index t (0 : Fin 2) * 1 + 1 * z.val = z.val; omega
  | ⟨1, _⟩ => show win0_2.index t (1 : Fin 2) * 32768 + 1 * l.val = t.val * 32768 + l.val; omega

/-- Block `t` of the other padded attribute row. -/
theorem blk3 (c : Dev nD) (t : Fin cfg0.N) (z : Fin 1) (l : Fin 32768) :
    iblk m c 3 t (ix2 z l) = V m c main_v25 (ix2 z ⟨t.val * 32768 + l.val, by have := lt196 t; have := l.isLt; omega⟩) := by
  obtain ⟨-, -, -, -, -, -, e0, e1, -⟩ := idx_facts t
  show V m c main_v25 (((cfg0.win 3).blk t).view.emb (ix2 z l)) = _
  refine congrArg (V m c main_v25) (funext fun a => Fin.ext ?_)
  match a with
  | ⟨0, _⟩ => show win0_3.index t (0 : Fin 2) * 1 + 1 * z.val = z.val; omega
  | ⟨1, _⟩ => show win0_3.index t (1 : Fin 2) * 32768 + 1 * l.val = t.val * 32768 + l.val; omega

/-- The first weight matrix is one block, the same at every point. -/
theorem blk4 (c : Dev nD) (t : Fin cfg0.N) (k : Fin 13) (j : Fin 10) :
    iblk m c 4 t (ix2 k j) = V m c main_arg4 (ix2 k j) := by
  obtain ⟨-, -, -, -, -, -, -, -, e0, e1, -⟩ := idx_facts t
  show V m c main_arg4 (((cfg0.win 4).blk t).view.emb (ix2 k j)) = _
  refine congrArg (V m c main_arg4) (funext fun a => Fin.ext ?_)
  match a with
  | ⟨0, _⟩ => show win0_4.index t (0 : Fin 2) * 13 + 1 * k.val = k.val; omega
  | ⟨1, _⟩ => show win0_4.index t (1 : Fin 2) * 10 + 1 * j.val = j.val; omega

/-- The first bias is one block. -/
theorem blk5 (c : Dev nD) (t : Fin cfg0.N) (j : Fin 10) : iblk m c 5 t (ix1 j) = V m c main_arg5 (ix1 j) := by
  obtain ⟨-, -, -, -, -, -, -, -, -, -, e0, -⟩ := idx_facts t
  show V m c main_arg5 (((cfg0.win 5).blk t).view.emb (ix1 j)) = _
  refine congrArg (V m c main_arg5) (funext fun a => Fin.ext ?_)
  match a with
  | ⟨0, _⟩ => show win0_5.index t (0 : Fin 1) * 10 + 1 * j.val = j.val; omega

/-- The second weight matrix is one block. -/
theorem blk6 (c : Dev nD) (t : Fin cfg0.N) (j : Fin 10) (o : Fin 2) :
    iblk m c 6 t (ix2 j o) = V m c main_arg6 (ix2 j o) := by
  obtain ⟨-, -, -, -, -, -, -, -, -, -, -, e0, e1, -⟩ := idx_facts t
  show V m c main_arg6 (((cfg0.win 6).blk t).view.emb (ix2 j o)) = _
  refine congrArg (V m c main_arg6) (funext fun a => Fin.ext ?_)
  match a with
  | ⟨0, _⟩ => show win0_6.index t (0 : Fin 2) * 10 + 1 * j.val = j.val; omega
  | ⟨1, _⟩ => show win0_6.index t (1 : Fin 2) * 2 + 1 * o.val = o.val; omega

/-- The second bias is one block. -/
theorem blk7 (c : Dev nD) (t : Fin cfg0.N) (o : Fin 2) : iblk m c 7 t (ix1 o) = V m c main_arg7 (ix1 o) := by
  obtain ⟨-, -, -, -, -, -, -, -, -, -, -, -, -, e0, -⟩ := idx_facts t
  show V m c main_arg7 (((cfg0.win 7).blk t).view.emb (ix1 o)) = _
  refine congrArg (V m c main_arg7) (funext fun a => Fin.ext ?_)
  match a with
  | ⟨0, _⟩ => show win0_7.index t (0 : Fin 1) * 2 + 1 * o.val = o.val; omega

/-! ## What a point writes back, the cover, the padded result -/

/-- WHAT POINT `t` WRITES BACK is block `t` of `padded`. -/
theorem flushed_eq (c : Dev nD) (t : Fin cfg0.N) :
    (dats m 0 c).flushed 8 t = ((cfg0.win 8).blk t).view.read (Elt Ideal) (padded m c) := by
  show (cfg0.win 8).cut (grid0.coords t) ((dats m 0 c).after 8 t) = _
  rw [after0_8]
  funext y
  obtain ⟨l, rfl⟩ : ∃ l : Fin 32768, y = ix1 l := ⟨y 0, eq_ix1 y⟩
  obtain ⟨-, -, -, -, -, -, -, -, -, -, -, -, -, -, e8⟩ := idx_facts t
  have hemb : (((cfg0.win 8).blk t).view.emb (ix1 l) 0).val = t.val * 32768 + l.val := by
    show win0_8.index t (0 : Fin 1) * 32768 + 1 * l.val = _
    omega
  show out0_8 (F := Ideal) (iblk m c 0 t) (iblk m c 1 t) (iblk m c 2 t) (iblk m c 3 t) (iblk m c 4 t) (iblk m c 5 t)
      (iblk m c 6 t) (iblk m c 7 t) (ix1 l) = padded m c (((cfg0.win 8).blk t).view.emb (ix1 l))
  refine (Cert.KernelIdeal.EdgeBody.out_lane (iblk m c 0 t) (iblk m c 1 t) (iblk m c 2 t) (iblk m c 3 t) (iblk m c 4 t)
    (iblk m c 5 t) (iblk m c 6 t) (iblk m c 7 t) l).trans ?_
  unfold padded paddedAt
  simp only [blk0 m c t, blk1 m c t, blk2 m c t, blk3 m c t, blk4 m c t, blk5 m c t, blk6 m c t, blk7 m c t]
  simp only [hemb]

/-- An index of the padded result is in point `t`'s block iff it lies in that block's range of columns. -/
theorem mem_blk (t : Fin cfg0.N) (i : S6422528.Idx) :
    i ∈ ((cfg0.win 8).blk t).view.set ↔ ∀ a : Fin 1, win0_8.index t a * S32768.size a ≤ (i a).val ∧ (i a).val < win0_8.index t a * S32768.size a + S32768.size a := by
  show i ∈ ((View.whole main_v26).slice (win0_8.rect t)).set ↔ _
  rw [View.set_slice_whole, Rect.mem_set_unit]
  exact Iff.rfl

/-- The 196 blocks cover the padded result: column `i` is in block `i / 32768`. -/
theorem cover (i : S6422528.Idx) : ∃ t : Fin cfg0.N, (cfg0.win 8).flush t = true ∧ i ∈ ((cfg0.win 8).blk t).view.set := by
  have hi : (i 0).val < 6422528 := (i 0).isLt
  refine ⟨⟨(i 0).val / 32768, by rw [show cfg0.N = 196 from N_0]; omega⟩, flush0_8 _, ?_⟩
  rw [mem_blk]
  intro a
  obtain ⟨-, -, -, -, -, -, -, -, -, -, -, -, -, -, e8⟩ := idx_facts ⟨(i 0).val / 32768, by rw [show cfg0.N = 196 from N_0]; omega⟩
  match a with
  | ⟨0, _⟩ =>
    show win0_8.index _ (0 : Fin 1) * 32768 ≤ (i 0).val ∧ (i 0).val < win0_8.index _ (0 : Fin 1) * 32768 + 32768
    rw [e8]
    show (i 0).val / 32768 * 32768 ≤ (i 0).val ∧ (i 0).val < (i 0).val / 32768 * 32768 + 32768
    omega

/-- THE PADDED RESULT after the run is `padded` everywhere. -/
theorem final (c : Dev nD) : (dats m 0 c).arrAt 8 cfg0.N = padded m c :=
  (dats m 0 c).arrAt_eq_of_cover 8 (padded m c) (fun t _ => flushed_eq m c t) (cover)

/-! ## The host lines after the region -/

/-- The program's result: the first 6400000 entries of the padded result, as a column. -/
theorem tail_array (c : Dev nD) :
    Pipeline.afterTail₀ cfgs (dats m) 0 (V0 m) [hostOps1] c main_v28
      = shapeCast S6400000x1 (extractStridedSlice S6400000 ![0] (padded m c) slices_S6422528_S6400000_0)
          shapeCasts_S6400000_S6400000x1 := by
  have hw : Pipeline.withArrays (cfgs 0).spec c (V0 m c) (fun w => (dats m 0 c).arrAt w (cfgs 0).N)
      (Proc.devRef .tc main_v26) = padded m c :=
    (Pipeline.withArrays_arr spec0 launch0.win.arr_inj c _ _ 8).trans (final m c)
  unfold Pipeline.afterTail₀
  show StableHlo.after hostOps1 _ (Proc.devRef .tc main_v28) = _
  after_results
  rw [hw]
  rfl

/-- Keeping the first 6400000 entries of an array of 6422528 and laying them out as a column: entry `(e, 0)` of the
    column is entry `e` of the array. -/
theorem slice_col_apply {α : Type} (G : S6422528.Idx → α) (e : Fin 6400000) :
    shapeCast S6400000x1 (extractStridedSlice S6400000 ![0] G slices_S6422528_S6400000_0) shapeCasts_S6400000_S6400000x1
        (ix2 e (0 : Fin 1))
      = G (ix1 ⟨e.val, by have := e.isLt; omega⟩) := by
  have he := e.isLt
  generalize hy : extractStridedSlice S6400000 ![0] G slices_S6422528_S6400000_0 = y
  refine (shapeCast_apply y shapeCasts_S6400000_S6400000x1 (ix2 e (0 : Fin 1)) (ix1 e) (by
    rewrite [Shape.rowMajor_val_two, Shape.rowMajor_val_one]
    show e.val = e.val * 1 + 0
    omega)).trans ?_
  subst hy
  exact extractStridedSlice_apply ![0] G slices_S6422528_S6400000_0 (ix1 e)
    (ix1 ⟨e.val, by omega⟩) (fun a => match a with
      | ⟨0, _⟩ => by show e.val = 0 + e.val; omega)

/-- Entry `e` of the result column is entry `e` of the padded result. -/
theorem tail_entry (c : Dev nD) (e : Fin 6400000) :
    Pipeline.afterTail₀ cfgs (dats m) 0 (V0 m) [hostOps1] c main_v28 (ix2 e (0 : Fin 1))
      = padded m c (ix1 ⟨e.val, by have := e.isLt; omega⟩) :=
  (congrFun (tail_array m c) (ix2 e (0 : Fin 1))).trans (slice_col_apply (padded m c) e)

/-! ## The padded feature-major arrays inside the first 6400000 columns -/

set_option maxHeartbeats 4000000 in
/-- The first endpoint's padded array is the gathered rows, transposed and padded with the converted zero. -/
theorem V22_eq (c : Dev nD) :
    (V m c main_v22 : S6x6422528.Idx → EReal)
      = pad S6x6422528 ![0, 0] ![0, 22528] ![0, 0]
          (transpose S6x6400000 [1, 0] (V m c main_v10 : S6400000x6.Idx → EReal) transposes_S6400000x6_S6x6400000_1_0)
          (sitofp (F := Ideal) .f32 (V m c main_c_3 : S_.Idx → BitVec 32)) pads_S6x6400000_S6x6422528_000_0225280 h_S_ := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results_simp <;> rfl

set_option maxHeartbeats 4000000 in
/-- The second endpoint's padded array likewise. -/
theorem V23_eq (c : Dev nD) :
    (V m c main_v23 : S6x6422528.Idx → EReal)
      = pad S6x6422528 ![0, 0] ![0, 22528] ![0, 0]
          (transpose S6x6400000 [1, 0] (V m c main_v18 : S6400000x6.Idx → EReal) transposes_S6400000x6_S6x6400000_1_0)
          (sitofp (F := Ideal) .f32 (V m c main_c_4 : S_.Idx → BitVec 32)) pads_S6x6400000_S6x6422528_000_0225280 h_S_ := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results_simp <;> rfl

set_option maxHeartbeats 4000000 in
/-- The padded attribute row is the attribute column, transposed and padded. -/
theorem V24_eq (c : Dev nD) :
    (V m c main_v24 : S1x6422528.Idx → EReal)
      = pad S1x6422528 ![0, 0] ![0, 22528] ![0, 0]
          (transpose S1x6400000 [1, 0] (V m c main_arg2 : S6400000x1.Idx → EReal) transposes_S6400000x1_S1x6400000_1_0)
          (sitofp (F := Ideal) .f32 (V m c main_c_5 : S_.Idx → BitVec 32)) pads_S1x6400000_S1x6422528_000_0225280 h_S_ := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results_simp <;> rfl

set_option maxHeartbeats 4000000 in
/-- The other padded attribute row likewise. -/
theorem V25_eq (c : Dev nD) :
    (V m c main_v25 : S1x6422528.Idx → EReal)
      = pad S1x6422528 ![0, 0] ![0, 22528] ![0, 0]
          (transpose S1x6400000 [1, 0] (V m c main_arg3 : S6400000x1.Idx → EReal) transposes_S6400000x1_S1x6400000_1_0)
          (sitofp (F := Ideal) .f32 (V m c main_c_6 : S_.Idx → BitVec 32)) pads_S1x6400000_S1x6422528_000_0225280 h_S_ := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results_simp <;> rfl

/-- A row-per-edge array of six features, transposed and padded along the edge axis, read at feature `f` and a
    column `e` below 6400000: the array at `(e, f)`. -/
theorem pad_tr6_apply {α : Type} (R : S6400000x6.Idx → α) (v : S_.Idx → α) (f : Fin 6) (e : Fin 6400000)
    (h : e.val < 6422528) :
    pad S6x6422528 ![0, 0] ![0, 22528] ![0, 0] (transpose S6x6400000 [1, 0] R transposes_S6400000x6_S6x6400000_1_0) v
        pads_S6x6400000_S6x6422528_000_0225280 h_S_ (ix2 f ⟨e.val, h⟩) = R (ix2 e f) := by
  generalize hy : transpose S6x6400000 [1, 0] R transposes_S6400000x6_S6x6400000_1_0 = y
  refine (pad_apply_of_inside ![0, 0] ![0, 22528] ![0, 0] y v pads_S6x6400000_S6x6422528_000_0225280 h_S_
    (ix2 f ⟨e.val, h⟩) (ix2 f e) (fun a => match a with
      | ⟨0, _⟩ => by show f.val = 0 + f.val * (0 + 1); omega
      | ⟨1, _⟩ => by show e.val = 0 + e.val * (0 + 1); omega)).trans ?_
  subst hy
  exact transpose_apply [1, 0] R transposes_S6400000x6_S6x6400000_1_0 (ix2 f e) (ix2 e f) (fun b => match b with
    | ⟨0, _⟩ => rfl
    | ⟨1, _⟩ => rfl)

/-- The same for a one-feature column. -/
theorem pad_tr1_apply {α : Type} (R : S6400000x1.Idx → α) (v : S_.Idx → α) (z : Fin 1) (e : Fin 6400000)
    (h : e.val < 6422528) :
    pad S1x6422528 ![0, 0] ![0, 22528] ![0, 0] (transpose S1x6400000 [1, 0] R transposes_S6400000x1_S1x6400000_1_0) v
        pads_S1x6400000_S1x6422528_000_0225280 h_S_ (ix2 z ⟨e.val, h⟩) = R (ix2 e z) := by
  generalize hy : transpose S1x6400000 [1, 0] R transposes_S6400000x1_S1x6400000_1_0 = y
  refine (pad_apply_of_inside ![0, 0] ![0, 22528] ![0, 0] y v pads_S1x6400000_S1x6422528_000_0225280 h_S_
    (ix2 z ⟨e.val, h⟩) (ix2 z e) (fun a => match a with
      | ⟨0, _⟩ => by show z.val = 0 + z.val * (0 + 1); omega
      | ⟨1, _⟩ => by show e.val = 0 + e.val * (0 + 1); omega)).trans ?_
  subst hy
  exact transpose_apply [1, 0] R transposes_S6400000x1_S1x6400000_1_0 (ix2 z e) (ix2 e z) (fun b => match b with
    | ⟨0, _⟩ => rfl
    | ⟨1, _⟩ => rfl)

theorem v22_entry (c : Dev nD) (e : Fin 6400000) (h : e.val < 6422528) (f : Fin 6) :
    V m c main_v22 (ix2 f ⟨e.val, h⟩) = V m c main_v10 (ix2 e f) :=
  (congrFun (V22_eq m c) (ix2 f ⟨e.val, h⟩)).trans (pad_tr6_apply _ _ f e h)
theorem v23_entry (c : Dev nD) (e : Fin 6400000) (h : e.val < 6422528) (f : Fin 6) :
    V m c main_v23 (ix2 f ⟨e.val, h⟩) = V m c main_v18 (ix2 e f) :=
  (congrFun (V23_eq m c) (ix2 f ⟨e.val, h⟩)).trans (pad_tr6_apply _ _ f e h)
theorem v24_entry (c : Dev nD) (e : Fin 6400000) (h : e.val < 6422528) :
    V m c main_v24 (ix2 (0 : Fin 1) ⟨e.val, h⟩) = V m c main_arg2 (ix2 e (0 : Fin 1)) :=
  (congrFun (V24_eq m c) (ix2 (0 : Fin 1) ⟨e.val, h⟩)).trans (pad_tr1_apply _ _ 0 e h)
theorem v25_entry (c : Dev nD) (e : Fin 6400000) (h : e.val < 6422528) :
    V m c main_v25 (ix2 (0 : Fin 1) ⟨e.val, h⟩) = V m c main_arg3 (ix2 e (0 : Fin 1)) :=
  (congrFun (V25_eq m c) (ix2 (0 : Fin 1) ⟨e.val, h⟩)).trans (pad_tr1_apply _ _ 0 e h)

/-! ## The result column and the run -/

/-- The kernel program's result column: per edge, the logistic of the logit difference, from the two gathered row
    arrays, the two attribute columns and the four parameter arrays as the region finds them. -/
def column (c : Dev nD) : Cert.EdgeSpec.Arr2 6400000 1 :=
  Cert.EdgeSpec.edgeColumn Cert.EdgeSpec.kernOut (V m c main_v10 : S6400000x6.Idx → EReal)
    (V m c main_v18 : S6400000x6.Idx → EReal) (V m c main_arg2 : S6400000x1.Idx → EReal)
    (V m c main_arg3 : S6400000x1.Idx → EReal) (V m c main_arg4 : S13x10.Idx → EReal) (V m c main_arg5 : S10.Idx → EReal)
    (V m c main_arg6 : S10x2.Idx → EReal) (V m c main_arg7 : S2.Idx → EReal) (Ideal.ofBits .f32 0x3F000000#32)

/-- Below column 6400000 the padded result is the edge's own. -/
theorem paddedAt_eq (c : Dev nD) (e : Fin 6400000) (h : e.val < 6422528) :
    paddedAt m c ⟨e.val, h⟩
      = Cert.EdgeSpec.kernOut (Cert.EdgeSpec.edgeScore (V m c main_v10 : S6400000x6.Idx → EReal)
          (V m c main_v18 : S6400000x6.Idx → EReal) (V m c main_arg2 : S6400000x1.Idx → EReal)
          (V m c main_arg3 : S6400000x1.Idx → EReal) (V m c main_arg4 : S13x10.Idx → EReal)
          (V m c main_arg5 : S10.Idx → EReal) (V m c main_arg6 : S10x2.Idx → EReal) (V m c main_arg7 : S2.Idx → EReal)
          (Ideal.ofBits .f32 0x3F000000#32) e) := by
  unfold paddedAt Cert.EdgeSpec.edgeScore
  simp only [v22_entry m c e h, v23_entry m c e h, v24_entry m c e h, v25_entry m c e h]

/-- The lines after the region leave the result column. -/
theorem tail_column (c : Dev nD) :
    Pipeline.afterTail₀ cfgs (dats m) 0 (V0 m) [hostOps1] c main_v28 = column m c := by
  funext i
  obtain ⟨e, z, rfl⟩ : ∃ (e : Fin 6400000) (z : Fin 1), i = ix2 e z := ⟨i 0, i 1, eq_ix2 i⟩
  obtain rfl : z = 0 := Subsingleton.elim _ _
  refine (tail_entry m c e).trans ?_
  exact paddedAt_eq m c e (by have := e.isLt; omega)

/-- The run: the result column, and every argument array as launched. -/
theorem run_value : θ_run defs (onTc (τ := τ) (main (F := Ideal))) ⟨m, fun _ => 0, ρ⟩ (fun r => ∀ c : Dev nD,
      r.2.mem ((c.tc : Thread nD τ).loc main_v28) = column m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).2 main_v28 (Pipeline.mem_restRefs_of main_v28 (by decide) (by decide))).trans (tail_column m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.KernelIdeal.EdgeArray

end
-- ==== Proof.RefStage.lean ====
/-
  The reference program's result array, read one entry at a time.

  Entry `e` of the result column is the softmax's second entry of edge `e`'s symmetrised logits: the two gathered
  endpoint rows and the edge's attribute are joined into thirteen features, carried through the two matrix products
  (each a plain sum over the contracted axis) with their biases and the rectifier, the two passes added and halved.
-/
import proofs.«148820_j61598420959300_1_alg».proof.Proof.Gen.ReferenceIdeal.Read
import proofs.«148820_j61598420959300_1_alg».proof.Proof.EdgeSpec

noncomputable section

open scoped BigOperators

namespace Cert.ReferenceIdeal.EdgeStage

open Cert.ReferenceIdeal Cert.ReferenceIdeal.Gen Cert.ReferenceIdeal.Read Idealize.ShloMosaic Idealize.ShloMosaic.ValueIdx

/-- Three pieces of widths six, six and one joined along the second axis, read at `(e, k)`. -/
theorem concat3_at {α : Type} (a b : S6400000x6.Idx → α) (c : S6400000x1.Idx → α) (e : Fin 6400000) (k : Fin 13) :
    concatenate S6400000x13 1 [⟨S6400000x6, a⟩, ⟨S6400000x6, b⟩, ⟨S6400000x1, c⟩]
        concatenates_S6400000x6_S6400000x6_S6400000x1_S6400000x13_d1 (ix2 e k)
      = if h : k.val < 6 then a (ix2 e ⟨k.val, h⟩)
        else if h' : k.val < 12 then b (ix2 e ⟨k.val - 6, by omega⟩) else c (ix2 e (0 : Fin 1)) := by
  by_cases h : k.val < 6
  · rw [dif_pos h]
    refine concatenate_apply_piece (1 : Fin 2) [⟨S6400000x6, a⟩, ⟨S6400000x6, b⟩, ⟨S6400000x1, c⟩] _ (ix2 e k) 0 (by simp) S6400000x6 a rfl rfl 0 rfl
      (ix2 e ⟨k.val, h⟩) (fun b hb => ?_) ?_
    · match b with
      | ⟨0, _⟩ => rfl
      | ⟨1, _⟩ => exact absurd rfl hb
    · show 0 + k.val = k.val
      omega
  · rw [dif_neg h]
    by_cases h' : k.val < 12
    · rw [dif_pos h']
      refine concatenate_apply_piece (1 : Fin 2) [⟨S6400000x6, a⟩, ⟨S6400000x6, b⟩, ⟨S6400000x1, c⟩] _ (ix2 e k) 1 (by simp) S6400000x6 b rfl rfl 6 rfl
        (ix2 e ⟨k.val - 6, by omega⟩) (fun b hb => ?_) ?_
      · match b with
        | ⟨0, _⟩ => rfl
        | ⟨1, _⟩ => exact absurd rfl hb
      · show 6 + (k.val - 6) = k.val
        omega
    · rw [dif_neg h']
      have hk : k.val = 12 := by have := k.isLt; omega
      refine concatenate_apply_piece (1 : Fin 2) [⟨S6400000x6, a⟩, ⟨S6400000x6, b⟩, ⟨S6400000x1, c⟩] _ (ix2 e k) 2 (by simp) S6400000x1 c rfl rfl 12 rfl
        (ix2 e (0 : Fin 1)) (fun b hb => ?_) ?_
      · match b with
        | ⟨0, _⟩ => rfl
        | ⟨1, _⟩ => exact absurd rfl hb
      · show 12 + 0 = k.val
        omega

section Stages

variable (x0 : (⟨S100000x6, .f32⟩ : BufTy).Contents (Elt Ideal)) (x1 : (⟨S2x6400000, .i32⟩ : BufTy).Contents (Elt Ideal))
    (x2 x3 : (⟨S6400000x1, .f32⟩ : BufTy).Contents (Elt Ideal)) (x4 : (⟨S13x10, .f32⟩ : BufTy).Contents (Elt Ideal))
    (x5 : (⟨S10, .f32⟩ : BufTy).Contents (Elt Ideal)) (x6 : (⟨S10x2, .f32⟩ : BufTy).Contents (Elt Ideal))
    (x7 : (⟨S2, .f32⟩ : BufTy).Contents (Elt Ideal))

/-- The features of edge `e`, first endpoint first. -/
abbrev featS (e : Fin 6400000) : Fin 13 → EReal :=
  Cert.EdgeSpec.feat (fun f => val_main_v10 (F := Ideal) x0 x1 (ix2 e f)) (fun f => val_main_v17 (F := Ideal) x0 x1 (ix2 e f))
    (x2 (ix2 e (0 : Fin 1)))

/-- The features of edge `e`, second endpoint first, with the other attribute. -/
abbrev featT (e : Fin 6400000) : Fin 13 → EReal :=
  Cert.EdgeSpec.feat (fun f => val_main_v17 (F := Ideal) x0 x1 (ix2 e f)) (fun f => val_main_v10 (F := Ideal) x0 x1 (ix2 e f))
    (x3 (ix2 e (0 : Fin 1)))

/-- The first joined array at `(e, k)` is feature `k` of edge `e`. -/
theorem v18_at (e : Fin 6400000) (k : Fin 13) :
    val_main_v18 (F := Ideal) x0 x1 x2 (ix2 e k) = featS x0 x1 x2 e k := by
  unfold val_main_v18 featS Cert.EdgeSpec.feat
  exact concat3_at _ _ _ e k

/-- The second joined array at `(e, k)` is feature `k` of edge `e` with the endpoints exchanged. -/
theorem v19_at (e : Fin 6400000) (k : Fin 13) :
    val_main_v19 (F := Ideal) x0 x1 x3 (ix2 e k) = featT x0 x1 x3 e k := by
  unfold val_main_v19 featT Cert.EdgeSpec.feat
  exact concat3_at _ _ _ e k

/-- The first matrix product at `(e, j)`. -/
theorem v20_at (e : Fin 6400000) (j : Fin 10) :
    val_main_v20 (F := Ideal) x0 x1 x2 x4 (ix2 e j) = ∑ k : Fin 13, featS x0 x1 x2 e k * x4 (ix2 k j) := by
  rw [val_main_v20_apply]
  refine Finset.sum_congr rfl fun k _ => ?_
  have el : lidx_main_v20 (ix2 e j) k = ix2 e k :=
    funext fun a => Fin.ext (by match a with | ⟨0, _⟩ => rfl | ⟨1, _⟩ => rfl)
  have er : ridx_main_v20 (ix2 e j) k = ix2 k j :=
    funext fun a => Fin.ext (by match a with | ⟨0, _⟩ => rfl | ⟨1, _⟩ => rfl)
  rw [el, er, v18_at]

/-- The same product on the exchanged features. -/
theorem v29_at (e : Fin 6400000) (j : Fin 10) :
    val_main_v29 (F := Ideal) x0 x1 x3 x4 (ix2 e j) = ∑ k : Fin 13, featT x0 x1 x3 e k * x4 (ix2 k j) := by
  rw [val_main_v29_apply]
  refine Finset.sum_congr rfl fun k _ => ?_
  have el : lidx_main_v29 (ix2 e j) k = ix2 e k :=
    funext fun a => Fin.ext (by match a with | ⟨0, _⟩ => rfl | ⟨1, _⟩ => rfl)
  have er : ridx_main_v29 (ix2 e j) k = ix2 k j :=
    funext fun a => Fin.ext (by match a with | ⟨0, _⟩ => rfl | ⟨1, _⟩ => rfl)
  rw [el, er, v19_at]

/-- The rectified hidden layer at `(e, j)`. -/
theorem v24_at (e : Fin 6400000) (j : Fin 10) :
    val_main_v24 (F := Ideal) x0 x1 x2 x4 x5 (ix2 e j)
      = Cert.EdgeSpec.hidden (fun k j => x4 (ix2 k j)) (fun j => x5 (ix1 j)) (featS x0 x1 x2 e) j := by
  have e5 : idx_main_v21 (idx_main_v22 (ix2 e j)) = ix1 j :=
    funext fun a => Fin.ext (by match a with | ⟨0, _⟩ => rfl)
  rw [val_main_v24_apply, val_main_v23_apply, v20_at, val_main_v22_apply, val_main_v21_apply, val_main_call0_v0_apply,
    val_main_call0_cst_apply, e5, Ideal.maximumf_def, Ideal.addf_def, Ideal.ofBits_def, Ideal.ofBits_zero_f32]
  rfl

/-- The same on the exchanged features. -/
theorem v33_at (e : Fin 6400000) (j : Fin 10) :
    val_main_v33 (F := Ideal) x0 x1 x3 x4 x5 (ix2 e j)
      = Cert.EdgeSpec.hidden (fun k j => x4 (ix2 k j)) (fun j => x5 (ix1 j)) (featT x0 x1 x3 e) j := by
  have e5 : idx_main_v30 (idx_main_v31 (ix2 e j)) = ix1 j :=
    funext fun a => Fin.ext (by match a with | ⟨0, _⟩ => rfl)
  rw [val_main_v33_apply, val_main_v32_apply, v29_at, val_main_v31_apply, val_main_v30_apply, val_main_call1_v0_apply,
    val_main_call1_cst_apply, e5, Ideal.maximumf_def, Ideal.addf_def, Ideal.ofBits_def, Ideal.ofBits_zero_f32]
  rfl

/-- The output layer at `(e, o)`. -/
theorem v28_at (e : Fin 6400000) (o : Fin 2) :
    val_main_v28 (F := Ideal) x0 x1 x2 x4 x5 x6 x7 (ix2 e o)
      = Cert.EdgeSpec.logit (fun k j => x4 (ix2 k j)) (fun j => x5 (ix1 j)) (fun j o => x6 (ix2 j o)) (fun o => x7 (ix1 o))
          (featS x0 x1 x2 e) o := by
  have e7 : idx_main_v26 (idx_main_v27 (ix2 e o)) = ix1 o :=
    funext fun a => Fin.ext (by match a with | ⟨0, _⟩ => rfl)
  have hs : val_main_v25 (F := Ideal) x0 x1 x2 x4 x5 x6 (ix2 e o)
      = ∑ j : Fin 10, Cert.EdgeSpec.hidden (fun k j => x4 (ix2 k j)) (fun j => x5 (ix1 j)) (featS x0 x1 x2 e) j * x6 (ix2 j o) := by
    rw [val_main_v25_apply]
    refine Finset.sum_congr rfl fun j _ => ?_
    have el : lidx_main_v25 (ix2 e o) j = ix2 e j :=
      funext fun a => Fin.ext (by match a with | ⟨0, _⟩ => rfl | ⟨1, _⟩ => rfl)
    have er : ridx_main_v25 (ix2 e o) j = ix2 j o :=
      funext fun a => Fin.ext (by match a with | ⟨0, _⟩ => rfl | ⟨1, _⟩ => rfl)
    rw [el, er, v24_at]
  rw [val_main_v28_apply, hs, val_main_v27_apply, val_main_v26_apply, e7, Ideal.addf_def]
  rfl

/-- The same on the exchanged features. -/
theorem v37_at (e : Fin 6400000) (o : Fin 2) :
    val_main_v37 (F := Ideal) x0 x1 x3 x4 x5 x6 x7 (ix2 e o)
      = Cert.EdgeSpec.logit (fun k j => x4 (ix2 k j)) (fun j => x5 (ix1 j)) (fun j o => x6 (ix2 j o)) (fun o => x7 (ix1 o))
          (featT x0 x1 x3 e) o := by
  have e7 : idx_main_v35 (idx_main_v36 (ix2 e o)) = ix1 o :=
    funext fun a => Fin.ext (by match a with | ⟨0, _⟩ => rfl)
  have hs : val_main_v34 (F := Ideal) x0 x1 x3 x4 x5 x6 (ix2 e o)
      = ∑ j : Fin 10, Cert.EdgeSpec.hidden (fun k j => x4 (ix2 k j)) (fun j => x5 (ix1 j)) (featT x0 x1 x3 e) j * x6 (ix2 j o) := by
    rw [val_main_v34_apply]
    refine Finset.sum_congr rfl fun j _ => ?_
    have el : lidx_main_v34 (ix2 e o) j = ix2 e j :=
      funext fun a => Fin.ext (by match a with | ⟨0, _⟩ => rfl | ⟨1, _⟩ => rfl)
    have er : ridx_main_v34 (ix2 e o) j = ix2 j o :=
      funext fun a => Fin.ext (by match a with | ⟨0, _⟩ => rfl | ⟨1, _⟩ => rfl)
    rw [el, er, v33_at]
  rw [val_main_v37_apply, hs, val_main_v36_apply, val_main_v35_apply, e7, Ideal.addf_def]
  rfl

/-- The symmetrised, halved logits of edge `e`. -/
abbrev zOf (e : Fin 6400000) : Fin 2 → EReal :=
  Cert.EdgeSpec.edgeScore (val_main_v10 (F := Ideal) x0 x1) (val_main_v17 (F := Ideal) x0 x1) x2 x3 x4 x5 x6 x7
    (Ideal.ofBits .f32 0x3F000000#32) e

/-- The scaled sum of the two passes at `(e, o)`. -/
theorem v40_at (e : Fin 6400000) (o : Fin 2) :
    val_main_v40 (F := Ideal) x0 x1 x2 x3 x4 x5 x6 x7 (ix2 e o) = zOf x0 x1 x2 x3 x4 x5 x6 x7 e o := by
  rw [val_main_v40_apply, val_main_v38_apply, v28_at, v37_at, val_main_v39_apply, val_main_cst_apply, Ideal.mulf_def,
    Ideal.addf_def, Ideal.ofBits_def]
  rfl

end Stages

section Softmax

variable (x0 : (⟨S100000x6, .f32⟩ : BufTy).Contents (Elt Ideal)) (x1 : (⟨S2x6400000, .i32⟩ : BufTy).Contents (Elt Ideal))
    (x2 x3 : (⟨S6400000x1, .f32⟩ : BufTy).Contents (Elt Ideal)) (x4 : (⟨S13x10, .f32⟩ : BufTy).Contents (Elt Ideal))
    (x5 : (⟨S10, .f32⟩ : BufTy).Contents (Elt Ideal)) (x6 : (⟨S10x2, .f32⟩ : BufTy).Contents (Elt Ideal))
    (x7 : (⟨S2, .f32⟩ : BufTy).Contents (Elt Ideal))

/-- The word `0xFF800000` encodes `-∞`. -/
theorem ofBits_neg_inf : Ideal.ofBits .f32 0xFF800000#32 = (⊥ : EReal) := by
  simp [Ideal.ofBits, Ideal.ieee]

/-- The larger logit of edge `e`, as the reference computes it: the fold of `max` from `⊥`, joined with `⊥` once more. -/
abbrev mOf (e : Fin 6400000) : EReal :=
  max ⊥ ((Finset.univ : Finset (Fin 2)).fold max ⊥ (zOf x0 x1 x2 x3 x4 x5 x6 x7 e))

/-- The maximum over the pair at `e`: the fold of `max` from `⊥` over the two logits. -/
theorem v41_at (e : Fin 6400000) :
    val_main_v41 (F := Ideal) x0 x1 x2 x3 x4 x5 x6 x7 (ix1 e)
      = (Finset.univ : Finset (Fin 2)).fold max ⊥ (zOf x0 x1 x2 x3 x4 x5 x6 x7 e) := by
  have hR : S6400000x2.Reduces [1] S6400000 := by decide
  have hb : val_main_cst_3 (F := Ideal) (Shape.Idx.first h_S_) = (⊥ : EReal) := by
    rw [val_main_cst_3_apply, Ideal.ofBits_def, ofBits_neg_inf]
  have hf : (fun k : Fin 2 => val_main_v40 (F := Ideal) x0 x1 x2 x3 x4 x5 x6 x7 (hR.lift (ix1 e) k))
      = zOf x0 x1 x2 x3 x4 x5 x6 x7 e :=
    funext fun (k : Fin 2) => by
      have hl : hR.lift (ix1 e) k = ix2 e k :=
        funext fun a => Fin.ext (by match a with | ⟨0, _⟩ => rfl | ⟨1, _⟩ => rfl)
      exact (congrArg (val_main_v40 (F := Ideal) x0 x1 x2 x3 x4 x5 x6 x7) hl).trans (v40_at x0 x1 x2 x3 x4 x5 x6 x7 e k)
  unfold val_main_v41
  refine (Host.reduce_eq_fold_single FloatOps.maximumf _ _ reducesTo_S6400000x2_S6400000_d1 hR h_S_ (ix1 e)).trans ?_
  show (Finset.univ : Finset (Fin 2)).fold max (val_main_cst_3 (F := Ideal) (Shape.Idx.first h_S_))
      (fun k : Fin 2 => val_main_v40 (F := Ideal) x0 x1 x2 x3 x4 x5 x6 x7 (hR.lift (ix1 e) k)) = _
  rw [hb, hf]

/-- Joined with the `⊥` splat once more. -/
theorem v43_at (e : Fin 6400000) :
    val_main_v43 (F := Ideal) x0 x1 x2 x3 x4 x5 x6 x7 (ix1 e) = mOf x0 x1 x2 x3 x4 x5 x6 x7 e := by
  rw [val_main_v43_apply, val_main_v42_apply, val_main_cst_4_apply, v41_at, Ideal.maximumf_def, Ideal.ofBits_def,
    ofBits_neg_inf]

/-- The shifted logits at `(e, o)`. -/
theorem v46_at (e : Fin 6400000) (o : Fin 2) :
    val_main_v46 (F := Ideal) x0 x1 x2 x3 x4 x5 x6 x7 (ix2 e o)
      = zOf x0 x1 x2 x3 x4 x5 x6 x7 e o - mOf x0 x1 x2 x3 x4 x5 x6 x7 e := by
  have e4 : idx_main_v44 (idx_main_v45 (ix2 e o)) = ix1 e :=
    funext fun a => Fin.ext (by match a with | ⟨0, _⟩ => rfl)
  rw [val_main_v46_apply, v40_at, val_main_v45_apply, val_main_v44_apply, e4, v43_at, Ideal.subf_def]

/-- Their exponentials. -/
theorem v47_at (e : Fin 6400000) (o : Fin 2) :
    val_main_v47 (F := Ideal) x0 x1 x2 x3 x4 x5 x6 x7 (ix2 e o)
      = Ideal.exp (zOf x0 x1 x2 x3 x4 x5 x6 x7 e o - mOf x0 x1 x2 x3 x4 x5 x6 x7 e) := by
  rw [val_main_v47_apply, v46_at, Ideal.hostUnary_exp_def]

/-- The denominator at `e`: the two exponentials summed from `0`. -/
theorem v48_at (e : Fin 6400000) :
    val_main_v48 (F := Ideal) x0 x1 x2 x3 x4 x5 x6 x7 (ix1 e)
      = 0 + ∑ k : Fin 2, Ideal.exp (zOf x0 x1 x2 x3 x4 x5 x6 x7 e k - mOf x0 x1 x2 x3 x4 x5 x6 x7 e) := by
  rw [val_main_v48_apply, val_main_cst_5_apply, Ideal.ofBits_def, Ideal.ofBits_zero_f32]
  refine congrArg (0 + ·) (Finset.sum_congr rfl fun k _ => ?_)
  have ek : idx_main_v48 (ix1 e) k = ix2 e k :=
    funext fun a => Fin.ext (by match a with | ⟨0, _⟩ => rfl | ⟨1, _⟩ => rfl)
  rw [ek, v47_at]

/-- The quotient at `(e, o)`. -/
theorem v51_at (e : Fin 6400000) (o : Fin 2) :
    val_main_v51 (F := Ideal) x0 x1 x2 x3 x4 x5 x6 x7 (ix2 e o)
      = Ideal.div (Ideal.exp (zOf x0 x1 x2 x3 x4 x5 x6 x7 e o - mOf x0 x1 x2 x3 x4 x5 x6 x7 e))
          (0 + ∑ k : Fin 2, Ideal.exp (zOf x0 x1 x2 x3 x4 x5 x6 x7 e k - mOf x0 x1 x2 x3 x4 x5 x6 x7 e)) := by
  have e9 : idx_main_v49 (idx_main_v50 (ix2 e o)) = ix1 e :=
    funext fun a => Fin.ext (by match a with | ⟨0, _⟩ => rfl)
  rw [val_main_v51_apply, v47_at, val_main_v50_apply, val_main_v49_apply, e9, v48_at, Ideal.hostDivf_def]

end Softmax

/-- Entry `e` of the reference's result. -/
theorem ref_entry (x0 : (⟨S100000x6, .f32⟩ : BufTy).Contents (Elt Ideal)) (x1 : (⟨S2x6400000, .i32⟩ : BufTy).Contents (Elt Ideal))
    (x2 x3 : (⟨S6400000x1, .f32⟩ : BufTy).Contents (Elt Ideal)) (x4 : (⟨S13x10, .f32⟩ : BufTy).Contents (Elt Ideal))
    (x5 : (⟨S10, .f32⟩ : BufTy).Contents (Elt Ideal)) (x6 : (⟨S10x2, .f32⟩ : BufTy).Contents (Elt Ideal))
    (x7 : (⟨S2, .f32⟩ : BufTy).Contents (Elt Ideal)) (e : Fin 6400000) :
    val_main_v52 (F := Ideal) x0 x1 x2 x3 x4 x5 x6 x7 (ix2 e (0 : Fin 1))
      = Cert.EdgeSpec.refOut (Cert.EdgeSpec.edgeScore (val_main_v10 (F := Ideal) x0 x1) (val_main_v17 (F := Ideal) x0 x1)
          x2 x3 x4 x5 x6 x7 (Ideal.ofBits .f32 0x3F000000#32) e) := by
  have es : idx_main_v52 (ix2 e (0 : Fin 1)) = ix2 e (1 : Fin 2) :=
    funext fun a => Fin.ext (by match a with | ⟨0, _⟩ => rfl | ⟨1, _⟩ => rfl)
  rw [val_main_v52_apply, es, v51_at]
  rfl

/-- The whole result column. -/
theorem ref_column (x0 : (⟨S100000x6, .f32⟩ : BufTy).Contents (Elt Ideal)) (x1 : (⟨S2x6400000, .i32⟩ : BufTy).Contents (Elt Ideal))
    (x2 x3 : (⟨S6400000x1, .f32⟩ : BufTy).Contents (Elt Ideal)) (x4 : (⟨S13x10, .f32⟩ : BufTy).Contents (Elt Ideal))
    (x5 : (⟨S10, .f32⟩ : BufTy).Contents (Elt Ideal)) (x6 : (⟨S10x2, .f32⟩ : BufTy).Contents (Elt Ideal))
    (x7 : (⟨S2, .f32⟩ : BufTy).Contents (Elt Ideal)) :
    val_main_v52 (F := Ideal) x0 x1 x2 x3 x4 x5 x6 x7
      = Cert.EdgeSpec.edgeColumn Cert.EdgeSpec.refOut (val_main_v10 (F := Ideal) x0 x1) (val_main_v17 (F := Ideal) x0 x1)
          x2 x3 x4 x5 x6 x7 (Ideal.ofBits .f32 0x3F000000#32) := by
  funext i
  obtain ⟨e, z, rfl⟩ : ∃ (e : Fin 6400000) (z : Fin 1), i = ix2 e z := ⟨i 0, i 1, eq_ix2 i⟩
  obtain rfl : z = 0 := Subsingleton.elim _ _
  exact ref_entry x0 x1 x2 x3 x4 x5 x6 x7 e

end Cert.ReferenceIdeal.EdgeStage

end
-- ==== Proof.FiniteInputs.lean ====
/-
  The precondition read entry by entry: when every float argument passes the test `|x| < +∞` on all its entries
  (the conjunction of the seven `all`-reductions is true), every entry of every float argument is a real number.
-/
import proofs.«148820_j61598420959300_1_alg».proof.Pre_finite_inputs
import proofs.«148820_j61598420959300_1_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Finite

open Cert.Pre_finite_inputs Idealize.ShloMosaic Idealize.ShloMosaic.ValueIdx

/-- The scalar shape has exactly one index. -/
instance subsingleton_scalar_idx : Subsingleton S_.Idx := ⟨fun a b => funext fun d => d.elim0⟩

/-- The f32 pattern `0x7F800000` is `+∞`. -/
theorem ofBits_inf_f32 : Ideal.ofBits .f32 0x7F800000#32 = (⊤ : EReal) := by simp [Ideal.ofBits, Ideal.ieee]

/-- An extended real whose absolute value `max x (-x)` is strictly below `+∞` is a real number. -/
theorem real_of_abs_lt_top (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | top => simp [Ideal.cmp] at h
  | coe r => exact ⟨r, rfl⟩

/-- When the `and`-reduction over all axes of the test `|x| < +∞` is true, every entry of `x` is real. -/
theorem all_real {s : Shape} {axes : List (Fin s.rank)} (x : FVec Ideal s .f32) (hb : S_.BroadcastsInDim s ![])
    (hr : s.ReducesTo axes S_) (hu : 0 < S_.numel)
    (h : Host.reduce IntOp.andi (cmpf .olt (Host.absf x) (broadcastInDim s ![] hb (constant S_ .f32 0x7F800000#32)))
      (constantI S_ 1 1#1) hr hu ix0 = 1#1) : ∀ i, ∃ r : ℝ, x i = (r : EReal) := by
  intro i
  have e := Host.reduce_andi_all _ _ hr hu ix0 h i
  exact real_of_abs_lt_top (x i) e

/-- Every entry of every float argument is real when the finiteness test answers true. -/
theorem entries_real (a0 : FVec Ideal S100000x6 .f32) (a1 : IVec S2x6400000 32) (a2 a3 : FVec Ideal S6400000x1 .f32)
    (a4 : FVec Ideal S13x10 .f32) (a5 : FVec Ideal S10 .f32) (a6 : FVec Ideal S10x2 .f32) (a7 : FVec Ideal S2 .f32)
    (h : Cert.Pre_finite_inputs.fn (F := Ideal) a0 a1 a2 a3 a4 a5 a6 a7 = (fun _ => 1#1)) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) := by
  have h0 := congrFun h ix0
  dsimp only [Cert.Pre_finite_inputs.fn, Cert.Pre_finite_inputs.fn_part1] at h0
  change IntOp.andi _ _ = 1#1 at h0
  obtain ⟨h0, h7⟩ := IntOp.andi_eq_one.1 h0
  change IntOp.andi _ _ = 1#1 at h0
  obtain ⟨h0, h6⟩ := IntOp.andi_eq_one.1 h0
  change IntOp.andi _ _ = 1#1 at h0
  obtain ⟨h0, h5⟩ := IntOp.andi_eq_one.1 h0
  change IntOp.andi _ _ = 1#1 at h0
  obtain ⟨h0, h4⟩ := IntOp.andi_eq_one.1 h0
  change IntOp.andi _ _ = 1#1 at h0
  obtain ⟨h0, h3⟩ := IntOp.andi_eq_one.1 h0
  change IntOp.andi _ _ = 1#1 at h0
  obtain ⟨h0, h2⟩ := IntOp.andi_eq_one.1 h0
  exact ⟨all_real a0 _ _ _ h0, all_real a2 _ _ _ h2, all_real a3 _ _ _ h3, all_real a4 _ _ _ h4,
    all_real a5 _ _ _ h5, all_real a6 _ _ _ h6, all_real a7 _ _ _ h7⟩

/-- The halving factor is a real number. -/
theorem half_real : ∃ r : ℝ, Ideal.ofBits .f32 0x3F000000#32 = (r : EReal) := by
  refine ⟨1 / 2, ?_⟩
  simp [Ideal.ofBits, Ideal.ieee, -EReal.coe_mul]; norm_num

end Cert.Pre_finite_inputs.Finite

end
-- ==== Proof.Bridge.lean ====
/-
  The two result columns are one column.

  Both programs gather the same two rows of the node table per edge (the same index arithmetic on the same index
  array), so the kernel program's row arrays are the reference's gather stages; the remaining arguments are read as
  launched. Per edge the kernel keeps the logistic of the logit difference and the reference the softmax's second
  entry: equal once the logits are real, which they are because every float argument is finite and a gathered row is
  a row of the node table.
-/
import proofs.«148820_j61598420959300_1_alg».proof.Proof.KernelArray
import proofs.«148820_j61598420959300_1_alg».proof.Proof.RefStage
import proofs.«148820_j61598420959300_1_alg».proof.Proof.FiniteInputs
import proofs.«148820_j61598420959300_1_alg».proof.Proof.EdgeSpec
import Idealize.ShloMosaic.Lib.StableHlo.Run

set_option maxRecDepth 16384

noncomputable section

namespace Cert.Proof.Bridge

open Idealize.ShloMosaic Idealize.ShloMosaic.TcCoe Idealize.SL.Sem Idealize.ShloMosaic.ValueIdx Idealize.ShloMosaic.StableHlo

variable (m : (ℓ : Loc Cert.KernelIdeal.nD Cert.KernelIdeal.τ Cert.KernelIdeal.sig) → Buf (Elt Ideal) ℓ)

set_option maxHeartbeats 4000000 in
/-- The first endpoint's rows as the region finds them are the reference's first gather stage of the launched
    node table and index array. -/
theorem src_rows (c : Dev Cert.KernelIdeal.nD) :
    (Cert.KernelIdeal.Gen.V m c Cert.KernelIdeal.main_v10 : Cert.KernelIdeal.S6400000x6.Idx → EReal)
      = Cert.ReferenceIdeal.Read.val_main_v10 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  dsimp only [Cert.KernelIdeal.Gen.V, Cert.KernelIdeal.Gen.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.KernelIdeal.Gen.hostOps0_7,
    List.flatten_cons, List.flatten_nil, List.append_nil, List.cons_append, List.nil_append]
  after_results_simp <;> rfl

set_option maxHeartbeats 4000000 in
/-- The second endpoint's rows likewise are the reference's second gather stage. -/
theorem tgt_rows (c : Dev Cert.KernelIdeal.nD) :
    (Cert.KernelIdeal.Gen.V m c Cert.KernelIdeal.main_v18 : Cert.KernelIdeal.S6400000x6.Idx → EReal)
      = Cert.ReferenceIdeal.Read.val_main_v17 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  dsimp only [Cert.KernelIdeal.Gen.V, Cert.KernelIdeal.Gen.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.KernelIdeal.Gen.hostOps0_7,
    List.flatten_cons, List.flatten_nil, List.append_nil, List.cons_append, List.nil_append]
  after_results_simp <;> rfl

/-- A gathered row is a row of the table: real when the table is. -/
theorem gather10_real (x0 : Cert.ReferenceIdeal.S100000x6.Idx → EReal) (x1 : IVec Cert.ReferenceIdeal.S2x6400000 32)
    (h0 : ∀ i, ∃ r : ℝ, x0 i = (r : EReal)) (i : Cert.ReferenceIdeal.S6400000x6.Idx) :
    ∃ r : ℝ, Cert.ReferenceIdeal.Read.val_main_v10 (F := Ideal) x0 x1 i = (r : EReal) := by
  unfold Cert.ReferenceIdeal.Read.val_main_v10 Host.gather
  exact h0 _
theorem gather17_real (x0 : Cert.ReferenceIdeal.S100000x6.Idx → EReal) (x1 : IVec Cert.ReferenceIdeal.S2x6400000 32)
    (h0 : ∀ i, ∃ r : ℝ, x0 i = (r : EReal)) (i : Cert.ReferenceIdeal.S6400000x6.Idx) :
    ∃ r : ℝ, Cert.ReferenceIdeal.Read.val_main_v17 (F := Ideal) x0 x1 i = (r : EReal) := by
  unfold Cert.ReferenceIdeal.Read.val_main_v17 Host.gather
  exact h0 _

/-- With real data the two ways of keeping a pair of logits give one column. -/
theorem column_out_eq (gs gt : Cert.EdgeSpec.Arr2 6400000 6) (ea ea' : Cert.EdgeSpec.Arr2 6400000 1)
    (W1 : Cert.EdgeSpec.Arr2 13 10) (b1 : Cert.EdgeSpec.Arr1 10) (W2 : Cert.EdgeSpec.Arr2 10 2) (b2 : Cert.EdgeSpec.Arr1 2)
    (c : EReal) (hgs : ∀ i, ∃ r : ℝ, gs i = (r : EReal)) (hgt : ∀ i, ∃ r : ℝ, gt i = (r : EReal))
    (hea : ∀ i, ∃ r : ℝ, ea i = (r : EReal)) (hea' : ∀ i, ∃ r : ℝ, ea' i = (r : EReal))
    (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal)) (hc : ∃ r : ℝ, c = (r : EReal)) :
    Cert.EdgeSpec.edgeColumn Cert.EdgeSpec.kernOut gs gt ea ea' W1 b1 W2 b2 c
      = Cert.EdgeSpec.edgeColumn Cert.EdgeSpec.refOut gs gt ea ea' W1 b1 W2 b2 c := by
  funext i
  unfold Cert.EdgeSpec.edgeColumn
  have hz : ∀ o : Fin 2, ∃ r : ℝ, Cert.EdgeSpec.edgeScore gs gt ea ea' W1 b1 W2 b2 c ⟨(i 0).val, idx2_lt0 i⟩ o = (r : EReal) := fun o =>
    Cert.EdgeSpec.score_real _ _ _ _ _ _ _ _ _ (fun k j => hW1 _) (fun j => hb1 _) (fun j o => hW2 _) (fun o => hb2 _)
      (fun f => hgs _) (fun f => hgt _) (hea _) (hea' _) hc o
  exact Cert.EdgeSpec.out_eq _ (hz 0) (hz 1)

/-- THE BRIDGE: under the precondition the kernel program's result column is the reference's result stage of the
    launched arguments. -/
theorem column_eq (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) = (fun _ => 1#1)) :
    Cert.KernelIdeal.EdgeArray.column m c
      = Cert.ReferenceIdeal.Read.val_main_v52 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) := by
  obtain ⟨h0, h2, h3, h4, h5, h6, h7⟩ := Cert.Pre_finite_inputs.Finite.entries_real _ _ _ _ _ _ _ _ hpre
  rw [Cert.ReferenceIdeal.EdgeStage.ref_column]
  unfold Cert.KernelIdeal.EdgeArray.column
  rw [src_rows m c, tgt_rows m c, Cert.KernelIdeal.Gen.V_main_arg2 m c, Cert.KernelIdeal.Gen.V_main_arg3 m c,
    Cert.KernelIdeal.Gen.V_main_arg4 m c, Cert.KernelIdeal.Gen.V_main_arg5 m c, Cert.KernelIdeal.Gen.V_main_arg6 m c,
    Cert.KernelIdeal.Gen.V_main_arg7 m c]
  exact column_out_eq _ _ _ _ _ _ _ _ _ (gather10_real _ _ h0) (gather17_real _ _ h0) h2 h3 h4 h5 h6 h7
    Cert.Pre_finite_inputs.Finite.half_real

end Cert.Proof.Bridge

end
-- ==== Proof.lean ====
/-
  The five claims of this certificate.

  The kernel program gathers, per edge, the rows of the node table at the edge's two endpoints, lays them and the two
  edge attributes out feature-major, pads the edge axis to 196 blocks of 32768, and in each block runs a two-layer
  perceptron (13 → 10 with a rectifier, 10 → 2) on (first endpoint, second endpoint, attribute) and on the endpoints
  exchanged with the other attribute, halves the sum of the two logit pairs and keeps the logistic function of their
  difference; it then drops the padding. The reference applies the same perceptron edge by edge and keeps the second
  entry of the softmax of the halved sum. At the ideal values the products and sums differ only by the order of
  factors and of summation; the logistic of a difference and a two-way softmax's second entry are one number for real
  logits; and the logits are real because the precondition makes every float argument finite and a gathered row is
  a row of the node table.
  The three frames: the two kernel programs' are the generated frame certificates, the reference's is its generated
  run with the result dropped. No operation was rewritten by the idealization, so the fourth claim is `True`.
-/
import proofs.«148820_j61598420959300_1_alg».proof.Defs
import proofs.«148820_j61598420959300_1_alg».proof.Proof.Gen.Kernel
import proofs.«148820_j61598420959300_1_alg».proof.Proof.Gen.Kernel.Frame
import proofs.«148820_j61598420959300_1_alg».proof.Proof.Gen.KernelIdeal
import proofs.«148820_j61598420959300_1_alg».proof.Proof.Gen.KernelIdeal.Frame
import proofs.«148820_j61598420959300_1_alg».proof.Proof.Gen.ReferenceIdeal
import proofs.«148820_j61598420959300_1_alg».proof.Proof.Gen.ReferenceIdeal.Run
import proofs.«148820_j61598420959300_1_alg».proof.Proof.Gen.ReferenceIdeal.Read
import proofs.«148820_j61598420959300_1_alg».proof.Proof.Gen.Pre_finite_inputs
import proofs.«148820_j61598420959300_1_alg».proof.Proof.KernelArray
import proofs.«148820_j61598420959300_1_alg».proof.Proof.Bridge
import Idealize.ShloMosaic.Adequacy
import Idealize.ShloMosaic.Init

noncomputable section

namespace Cert.Proof

open Idealize.ShloMosaic Idealize.ShloMosaic.TcCoe Idealize.SL.Sem

/-- At the ideal values both programs end with the same result column: the kernel program's run names it, the
    reference's run ends at its last stage of arguments that agree, and the bridge joins the two. -/
theorem algebraic : Cert.algebraic_KernelIdeal_ReferenceIdeal := by
  intro m ρ m' ρ' hpre hagree
  refine ⟨fun c => Cert.KernelIdeal.EdgeArray.column m c, Cert.KernelIdeal.EdgeArray.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v52_eq, a0, a1, a2, a3, a4, a5, a6, a7]
  exact (Cert.Proof.Bridge.column_eq m c (hpre c)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
